-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x24 : Shape := ⟨2, ![262144, 24]⟩
abbrev S262144 : Shape := ⟨1, ![262144]⟩
abbrev S66x64 : Shape := ⟨2, ![66, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S262144x8 : Shape := ⟨2, ![262144, 8]⟩

class Facts : Prop where
  bcast_S_S66x64 : S_.BroadcastsInDim S66x64 (![] : Fin 0 → Fin S66x64.rank)
  reducesTo_S66x64_S_d0_1 : S66x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S262144x24_S262144x8_0_15 : S262144x24.Slices ![0, 15] S262144x8
  bcast_S_S262144x8 : S_.BroadcastsInDim S262144x8 (![] : Fin 0 → Fin S262144x8.rank)
  reducesTo_S262144x8_S_d0_1 : S262144x8.ReducesTo [0, 1] S_
  bcast_S_S262144 : S_.BroadcastsInDim S262144 (![] : Fin 0 → Fin S262144.rank)
  reducesTo_S262144_S_d0 : S262144.ReducesTo [0] S_

variable [Facts]

def fn_part2 {F : FTy → Type} [FloatOps F] (main_arg1 : IVec S262144 32) (main_v32 : IVec S_ 1) (main_v33 : IVec S262144 32) : IVec S_ 1 :=
  let main_v34 : IVec S262144 1 := cmpi .sge main_arg1 main_v33
  let main_c_12 : IVec S_ 32 := constantI S_ 32 66#32
  let main_v35 : IVec S262144 32 := broadcastInDim S262144 ![] bcast_S_S262144 main_c_12
  let main_v36 : IVec S262144 1 := cmpi .slt main_arg1 main_v35
  let main_v37 : IVec S262144 1 := andi main_v34 main_v36
  let main_c_13 : IVec S_ 1 := constantI S_ 1 1#1
  let main_v38 : IVec S_ 1 := (fun x v => Host.reduce IntOp.andi x v reducesTo_S262144_S_d0 h_S_) main_v37 main_c_13
  let main_v39 : IVec S_ 1 := andi main_v32 main_v38
  main_v39

def fn_part1 {F : FTy → Type} [FloatOps F] (main_arg0 : IVec S262144x24 32) (main_arg1 : IVec S262144 32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S262144x8 32 := (extractStridedSlice S262144x8 ![0, 15] · slices_S262144x24_S262144x8_0_15) main_arg0
  let main_c_8 : IVec S_ 32 := constantI S_ 32 0#32
  let main_v25 : IVec S262144x8 32 := broadcastInDim S262144x8 ![] bcast_S_S262144x8 main_c_8
  let main_v26 : IVec S262144x8 1 := cmpi .sge main_v24 main_v25
  let main_v27 : IVec S262144x8 32 := (extractStridedSlice S262144x8 ![0, 15] · slices_S262144x24_S262144x8_0_15) main_arg0
  let main_c_9 : IVec S_ 32 := constantI S_ 32 66#32
  let main_v28 : IVec S262144x8 32 := broadcastInDim S262144x8 ![] bcast_S_S262144x8 main_c_9
  let main_v29 : IVec S262144x8 1 := cmpi .slt main_v27 main_v28
  let main_v30 : IVec S262144x8 1 := andi main_v26 main_v29
  let main_c_10 : IVec S_ 1 := constantI S_ 1 1#1
  let main_v31 : IVec S_ 1 := (fun x v => Host.reduce IntOp.andi x v reducesTo_S262144x8_S_d0_1 h_S_) main_v30 main_c_10
  let main_v32 : IVec S_ 1 := andi main_v23 main_v31
  let main_c_11 : IVec S_ 32 := constantI S_ 32 0#32
  let main_v33 : IVec S262144 32 := broadcastInDim S262144 ![] bcast_S_S262144 main_c_11
  fn_part2 (F := F) main_arg1 main_v32 main_v33

def fn {F : FTy → Type} [FloatOps F] (main_arg0 : IVec S262144x24 32) (main_arg1 : IVec S262144 32) (main_arg2 : FVec F S66x64 .f32) (main_arg3 : FVec F S64x128 .f32) (main_arg4 : FVec F S64 .f32) (main_arg5 : FVec F S64x64 .f32) (main_arg6 : FVec F S64 .f32) : IVec S_ 1 :=
  let main_v0 : FVec F S66x64 .f32 := Host.absf main_arg2
  let main_cst : FVec F S_ .f32 := constant S_ .f32 0x7F800000#32
  let main_v1 : FVec F S66x64 .f32 := broadcastInDim S66x64 ![] bcast_S_S66x64 main_cst
  let main_v2 : IVec S66x64 1 := cmpf .olt main_v0 main_v1
  let main_c : IVec S_ 1 := constantI S_ 1 1#1
  let main_v3 : IVec S_ 1 := (fun x v => Host.reduce IntOp.andi x v reducesTo_S66x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg1 main_arg6 main_v13 main_v16
-- ==== Kernel.lean ====
abbrev S262144x24 : Shape := ⟨2, ![262144, 24]⟩
abbrev S262144 : Shape := ⟨1, ![262144]⟩
abbrev S66x64 : Shape := ⟨2, ![66, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S132x64 : Shape := ⟨2, ![132, 64]⟩
abbrev S262144x1 : Shape := ⟨2, ![262144, 1]⟩
abbrev S262144x64 : Shape := ⟨2, ![262144, 64]⟩
abbrev S8192x24 : Shape := ⟨2, ![8192, 24]⟩
abbrev S8192x1 : Shape := ⟨2, ![8192, 1]⟩
abbrev S8192x64 : Shape := ⟨2, ![8192, 64]⟩
abbrev S8192x8 : Shape := ⟨2, ![8192, 8]⟩
abbrev S8192x66 : Shape := ⟨2, ![8192, 66]⟩
abbrev S8192x132 : Shape := ⟨2, ![8192, 132]⟩
abbrev S1x64 : Shape := ⟨2, ![1, 64]⟩

abbrev nBuf : Space → Nat
  | .hbm => 20
  | .vmem => 10
  | .smem => 0
  | _ => 0

abbrev bufTy : (tb : Table) → Fin (tcTables nBuf tb) → BufTy
  | .hbm, ⟨0, _⟩ => ⟨S262144x24, .i32⟩
  | .hbm, ⟨1, _⟩ => ⟨S262144, .i32⟩
  | .hbm, ⟨2, _⟩ => ⟨S66x64, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S66x64, .f32⟩
  | .hbm, ⟨11, _⟩ => ⟨S64x64, .f32⟩
  | .hbm, ⟨12, _⟩ => ⟨S66x64, .f32⟩
  | .hbm, ⟨13, _⟩ => ⟨S_, .f32⟩
  | .hbm, ⟨14, _⟩ => ⟨S66x64, .f32⟩
  | .hbm, ⟨15, _⟩ => ⟨S66x64, .f32⟩
  | .hbm, ⟨16, _⟩ => ⟨S132x64, .f32⟩
  | .hbm, ⟨17, _⟩ => ⟨S64x64, .f32⟩
  | .hbm, ⟨18, _⟩ => ⟨S262144x1, .i32⟩
  | .hbm, ⟨19, _⟩ => ⟨S262144x64, .f32⟩
  | .local _ .vmem, ⟨0, _⟩ => ⟨S8192x24, .i32⟩
  | .local _ .vmem, ⟨1, _⟩ => ⟨S8192x24, .i32⟩
  | .local _ .vmem, ⟨2, _⟩ => ⟨S8192x1, .i32⟩
  | .local _ .vmem, ⟨3, _⟩ => ⟨S8192x1, .i32⟩
  | .local _ .vmem, ⟨4, _⟩ => ⟨S132x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S8192x64, .f32⟩
  | .local _ .vmem, ⟨9, _⟩ => ⟨S8192x64, .f32⟩
  | _, _ => ⟨S262144x24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x24 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S132x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S64x128_S64x64_0_0 : S64x128.Slices ![0, 0] S64x64
  slices_S64x128_S64x64_0_64 : S64x128.Slices ![0, 64] S64x64
  transposes_S64x64_S64x64_1_0 : S64x64.Transposes [1, 0] S64x64
  bcast_S_S66x64 : S_.BroadcastsInDim S66x64 (![] : Fin 0 → Fin S66x64.rank)
  concatenates_S66x64_S66x64_S132x64_d0 : Shape.Concatenates [S66x64, S66x64] S132x64 0
  bcast_S262144_S262144x1_0 : S262144.BroadcastsInDim S262144x1 (![0] : Fin 1 → Fin S262144x1.rank)
  inb_S8192x24_S8192x24_0_0 : ∀ a, (![0, 0] : Fin 2 → Nat) a + S8192x24.size a ≤ S8192x24.size a
  h_S8192x24 : 0 < S8192x24.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S132x64_S132x64_0_0 : ∀ a, (![0, 0] : Fin 2 → Nat) a + S132x64.size a ≤ S132x64.size a
  h_S132x64 : 0 < S132x64.numel
  shapeCasts_S132x64_S132x64 : S132x64.ShapeCasts S132x64
  inb_S64_S64_0 : ∀ a, (![0] : Fin 1 → Nat) a + S64.size a ≤ S64.size a
  h_S64 : 0 < S64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S8192x24_o0_15_S8192x8 : S8192x24.Slices ![0, 15] S8192x8
  iota_S8192x66_d1_w32 : S8192x66.Iotas .tc 32 [1]
  broadcasts_S8192x1_S8192x66 : S8192x1.Broadcasts S8192x66
  natLt_1_32 : 1 < 32
  slices_S8192x8_o0_0_S8192x1 : S8192x8.Slices ![0, 0] S8192x1
  slices_S8192x8_o0_1_S8192x1 : S8192x8.Slices ![0, 1] S8192x1
  slices_S8192x8_o0_2_S8192x1 : S8192x8.Slices ![0, 2] S8192x1
  slices_S8192x8_o0_3_S8192x1 : S8192x8.Slices ![0, 3] S8192x1
  slices_S8192x8_o0_4_S8192x1 : S8192x8.Slices ![0, 4] S8192x1
  slices_S8192x8_o0_5_S8192x1 : S8192x8.Slices ![0, 5] S8192x1
  slices_S8192x8_o0_6_S8192x1 : S8192x8.Slices ![0, 6] S8192x1
  slices_S8192x8_o0_7_S8192x1 : S8192x8.Slices ![0, 7] S8192x1
  concatenates_S8192x66_S8192x66_S8192x132_d1 : Shape.Concatenates [S8192x66, S8192x66] S8192x132 1
  shapeCasts_S64_S1x64 : S64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  dot_S66x64_S64x64_S66x64_1_0_0_1_n_n_wf : DotDims.WF S66x64 S64x64 S66x64 [1] [0] [0] [1] [] []
  dot_S8192x132_S132x64_S8192x64_1_0_0_1_n_n_wf : DotDims.WF S8192x132 S132x64 S8192x64 [1] [0] [0] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x24.size a ≤ S262144x24.size a
  hwx0_0 : ∀ i : grid0.Coords, EltTy.bits .i32 = 32 ∨ (Rect.block (s := S262144x24) S8192x24.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .i32 = 32 ∨ (Rect.block (s := S262144x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S132x64.size a ≤ S132x64.size a
  hwx0_2 : ∀ i : grid0.Coords, EltTy.bits .f32 = 32 ∨ (Rect.block (s := S132x64) S132x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x64.size a ≤ S262144x64.size a
  hwx0_6 : ∀ i : grid0.Coords, EltTy.bits .f32 = 32 ∨ (Rect.block (s := S262144x64) S8192x64.size (cc0_transform_6 i) (hinb0_6 i)).WholeWords (EltTy.packing .f32)

variable [Facts₀]

def dot_S66x64_S64x64_S66x64_1_0_0_1_n_n : DotDims S66x64 S64x64 S66x64 where
  lhsContracting := [1]
  rhsContracting := [0]
  lhsNonContracting := [0]
  rhsNonContracting := [1]
  lhsBatch := []
  rhsBatch := []
  wf := dot_S66x64_S64x64_S66x64_1_0_0_1_n_n_wf
def dot_S8192x132_S132x64_S8192x64_1_0_0_1_n_n : DotDims S8192x132 S132x64 S8192x64 where
  lhsContracting := [1]
  rhsContracting := [0]
  lhsNonContracting := [0]
  rhsNonContracting := [1]
  lhsBatch := []
  rhsBatch := []
  wf := dot_S8192x132_S132x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S8192x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S132x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S8192x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x24 : Shape := ⟨2, ![262144, 24]⟩
abbrev S262144 : Shape := ⟨1, ![262144]⟩
abbrev S66x64 : Shape := ⟨2, ![66, 64]⟩
abbrev S64x128 : Shape := ⟨2, ![64, 128]⟩
abbrev S64 : Shape := ⟨1, ![64]⟩
abbrev S64x64 : Shape := ⟨2, ![64, 64]⟩
abbrev S262144x8 : Shape := ⟨2, ![262144, 8]⟩
abbrev S_ : Shape := ⟨0, ![]⟩
abbrev S262144x8x1 : Shape := ⟨3, ![262144, 8, 1]⟩
abbrev S262144x8x64 : Shape := ⟨3, ![262144, 8, 64]⟩
abbrev S262144x64 : Shape := ⟨2, ![262144, 64]⟩
abbrev S262144x1 : Shape := ⟨2, ![262144, 1]⟩
abbrev S262144x128 : Shape := ⟨2, ![262144, 128]⟩
abbrev S128x64 : Shape := ⟨2, ![128, 64]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S262144x24, .i32⟩
  | .hbm, ⟨1, _⟩ => ⟨S262144, .i32⟩
  | .hbm, ⟨2, _⟩ => ⟨S66x64, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S262144x8, .i32⟩
  | .hbm, ⟨8, _⟩ => ⟨S_, .i32⟩
  | .hbm, ⟨9, _⟩ => ⟨S262144x8, .i32⟩
  | .hbm, ⟨10, _⟩ => ⟨S262144x8, .i1⟩
  | .hbm, ⟨11, _⟩ => ⟨S_, .i32⟩
  | .hbm, ⟨12, _⟩ => ⟨S262144x8, .i32⟩
  | .hbm, ⟨13, _⟩ => ⟨S262144x8, .i32⟩
  | .hbm, ⟨14, _⟩ => ⟨S262144x8, .i32⟩
  | .hbm, ⟨15, _⟩ => ⟨S262144x8x1, .i32⟩
  | .hbm, ⟨16, _⟩ => ⟨S262144x8x64, .f32⟩
  | .hbm, ⟨17, _⟩ => ⟨S_, .f32⟩
  | .hbm, ⟨18, _⟩ => ⟨S262144x64, .f32⟩
  | .hbm, ⟨19, _⟩ => ⟨S_, .f32⟩
  | .hbm, ⟨20, _⟩ => ⟨S262144x64, .f32⟩
  | .hbm, ⟨21, _⟩ => ⟨S262144x64, .f32⟩
  | .hbm, ⟨22, _⟩ => ⟨S_, .i32⟩
  | .hbm, ⟨23, _⟩ => ⟨S262144, .i32⟩
  | .hbm, ⟨24, _⟩ => ⟨S262144, .i1⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144, .i32⟩
  | .hbm, ⟨29, _⟩ => ⟨S262144x1, .i32⟩
  | .hbm, ⟨30, _⟩ => ⟨S262144x64, .f32⟩
  | .hbm, ⟨31, _⟩ => ⟨S262144x128, .f32⟩
  | .hbm, ⟨32, _⟩ => ⟨S128x64, .f32⟩
  | .hbm, ⟨33, _⟩ => ⟨S262144x64, .f32⟩
  | .hbm, ⟨34, _⟩ => ⟨S1x64, .f32⟩
  | .hbm, ⟨35, _⟩ => ⟨S262144x64, .f32⟩
  | .hbm, ⟨36, _⟩ => ⟨S262144x64, .f32⟩
  | .hbm, ⟨37, _⟩ => ⟨S_, .f32⟩
  | .hbm, ⟨38, _⟩ => ⟨S262144x64, .f32⟩
  | .hbm, ⟨39, _⟩ => ⟨S262144x64, .f32⟩
  | .hbm, ⟨40, _⟩ => ⟨S64x64, .f32⟩
  | .hbm, ⟨41, _⟩ => ⟨S262144x64, .f32⟩
  | .hbm, ⟨42, _⟩ => ⟨S1x64, .f32⟩
  | .hbm, ⟨43, _⟩ => ⟨S262144x64, .f32⟩
  | .hbm, ⟨44, _⟩ => ⟨S262144x64, .f32⟩
  | _, _ => ⟨S262144x24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  slices_S262144x24_S262144x8_0_15 : S262144x24.Slices ![0, 15] S262144x8
  bcast_S_S262144x8 : S_.BroadcastsInDim S262144x8 (![] : Fin 0 → Fin S262144x8.rank)
  bcast_S262144x8_S262144x8x1_0_1 : S262144x8.BroadcastsInDim S262144x8x1 (![0, 1] : Fin 2 → Fin S262144x8x1.rank)
  reducesTo_S262144x8x64_S262144x64_d1 : S262144x8x64.ReducesTo [1] S262144x64
  h_S_ : 0 < S_.numel
  bcast_S_S262144x64 : S_.BroadcastsInDim S262144x64 (![] : Fin 0 → Fin S262144x64.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x64_S262144x64_S262144x128_d1 : Shape.Concatenates [S262144x64, S262144x64] S262144x128 1
  transposes_S64x128_S128x64_1_0 : S64x128.Transposes [1, 0] S128x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  transposes_S64x64_S64x64_1_0 : S64x64.Transposes [1, 0] S64x64
  gather_S66x64_S262144x8x1_S262144x8x64_2_0_n_n_0_2_164_wf : GatherDims.WF S66x64 S262144x8x1 S262144x8x64 [2] [0] [] [0] [] 2 ![1, 64]
  gather_S66x64_S262144x1_S262144x64_1_0_n_n_0_1_164_wf : GatherDims.WF S66x64 S262144x1 S262144x64 [1] [0] [] [0] [] 1 ![1, 64]
  dot_S262144x128_S128x64_S262144x64_1_0_0_1_n_n_wf : DotDims.WF S262144x128 S128x64 S262144x64 [1] [0] [0] [1] [] []
  dot_S262144x64_S64x64_S262144x64_1_0_0_1_n_n_wf : DotDims.WF S262144x64 S64x64 S262144x64 [1] [0] [0] [1] [] []

variable [Facts₀]

def gather_S66x64_S262144x8x1_S262144x8x64_2_0_n_n_0_2_164 : GatherDims S66x64 S262144x8x1 S262144x8x64 where
  offsetDims := [2]
  collapsedSliceDims := [0]
  operandBatchingDims := []
  startIndicesBatchingDims := []
  startIndexMap := [0]
  indexVectorDim := 2
  sliceSizes := ![1, 64]
  wf := gather_S66x64_S262144x8x1_S262144x8x64_2_0_n_n_0_2_164_wf
def gather_S66x64_S262144x1_S262144x64_1_0_n_n_0_1_164 : GatherDims S66x64 S262144x1 S262144x64 where
  offsetDims := [1]
  collapsedSliceDims := [0]
  operandBatchingDims := []
  startIndicesBatchingDims := []
  startIndexMap := [0]
  indexVectorDim := 1
  sliceSizes := ![1, 64]
  wf := gather_S66x64_S262144x1_S262144x64_1_0_n_n_0_1_164_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf

class Facts : Prop extends Facts₀ where

variable [Facts]
-- ==== Proof.Spec.lean ====
/-
  The mathematics of the two programs, with no program in sight.

  A row of the batch carries one query token and eight memory tokens, words that name rows of an embedding
  table E (66 rows of 64 numbers). Both programs push the row through the same two dense layers; they differ
  in how the first layer's pre-activation is formed.

  • One side looks the rows up: x is the query's row of E followed by the mean of the eight memory rows
    (their sum divided by 8), 128 numbers, and the pre-activation at j is the sum over k of x k · W1 j k
    (hpreR). A word is turned into a row as an array lookup does it: a negative word has 66 added, and the
    result is clamped into 0 … 65 (row).

  • The other side folds the lookup into the weights: the table tab has 132 rows, row v < 66 being
    E v · (first half of W1 j) and row 66 + v being (E v · (second half of W1 j)) · (1/8); the left factor lhs
    has the indicator of "the query is v" at v and the number of memory tokens equal to v at 66 + v, and the
    pre-activation is the sum over the 132 rows of lhs · tab (hpreK).

  From the pre-activation on both do the same: add b1, clamp below at 0, multiply by W2 transposed, add b2
  (tail).

  The two pre-activations agree when the entries of E and W1 are real numbers and every token is a word
  0 … 65 (hpreK_eq_hpreR): summing an indicator against a table picks the table's row, the counts
  distribute over the eight tokens, and dividing a finite sum by 8 before or after the second contraction is
  the same real number.
-/
import Idealize.ShloMosaic.PureOps.Ideal
import Idealize.ShloMosaic.PureOps.Ideal.Laws
import Idealize.ShloMosaic.Lib.ValueIdx

noncomputable section

open scoped BigOperators

namespace Cert.TokenMlp

open Idealize.ShloMosaic Idealize.ShloMosaic.ValueIdx

/-- Whether the word a is the token v, as a number: the one-bit result of the equality test widened to a
    word and read as a signed integer (1 when equal, 0 when not). -/
def hot (a : BitVec 32) (v : Fin 66) : EReal :=
  ((((IntOp.cmpi .eq a (BitVec.ofNat 32 v.val)).setWidth 32).toInt : ℝ) : EReal)

/-- The left factor of the folded contraction for one batch row: at v < 66 whether the query is v, at 66 + v
    how many of the eight memory tokens are v. -/
def lhs (tq : BitVec 32) (tm : Fin 8 → BitVec 32) (u : Fin 132) : EReal :=
  if h : u.val < 66 then hot tq ⟨u.val, h⟩ else ∑ c : Fin 8, hot (tm c) ⟨u.val - 66, by omega⟩

/-- The folded table: row v < 66 is E v contracted with the first 64 columns of W1 j, row 66 + v is E v
    contracted with the last 64 columns of W1 j, times the constant 1/8 (kept as its float word). -/
def tab (E : (⟨2, ![66, 64]⟩ : Shape).Idx → EReal) (W1 : (⟨2, ![64, 128]⟩ : Shape).Idx → EReal)
    (u : Fin 132) (j : Fin 64) : EReal :=
  if h : u.val < 66 then ∑ k : Fin 64, E (ix2 ⟨u.val, h⟩ k) * W1 (ix2 j ⟨k.val, by omega⟩)
  else (∑ k : Fin 64, E (ix2 ⟨u.val - 66, by omega⟩ k) * W1 (ix2 j ⟨64 + k.val, by omega⟩))
    * Ideal.ofBits .f32 0x3E000000#32

/-- The folded pre-activation: the 132-term contraction of the left factor with a table P. -/
def hpreK (P : Fin 132 → Fin 64 → EReal) (tq : BitVec 32) (tm : Fin 8 → BitVec 32) (j : Fin 64) : EReal :=
  ∑ u : Fin 132, lhs tq tm u * P u j

/-- The row of E an array lookup reads for the word a: 66 is added to a negative word, and the result, read
    as a signed integer, is clamped into 0 … 65. -/
def row (a : BitVec 32) : Fin 66 :=
  ⟨min (Scalar.select (IntOp.cmpi .slt a 0#32) (IntOp.addi a 66#32) a).toInt.toNat 65, by omega⟩

/-- The looked-up input of the first layer for one batch row: the query's row of E, then the sum of the eight
    memory rows (from the float zero) divided by the float 8. -/
def xrow (E : (⟨2, ![66, 64]⟩ : Shape).Idx → EReal) (tq : BitVec 32) (tm : Fin 8 → BitVec 32) (k : Fin 128) : EReal :=
  if h : k.val < 64 then E (ix2 (row tq) ⟨k.val, h⟩)
  else Ideal.div (Ideal.ofBits .f32 0x00000000#32 + ∑ c : Fin 8, E (ix2 (row (tm c)) ⟨k.val - 64, by omega⟩))
    (Ideal.ofBits .f32 0x41000000#32)

/-- The looked-up pre-activation: the 128-term contraction of that input with row j of W1. -/
def hpreR (E : (⟨2, ![66, 64]⟩ : Shape).Idx → EReal) (W1 : (⟨2, ![64, 128]⟩ : Shape).Idx → EReal)
    (tq : BitVec 32) (tm : Fin 8 → BitVec 32) (j : Fin 64) : EReal :=
  ∑ k : Fin 128, xrow E tq tm k * W1 (ix2 j k)

/-- From the pre-activation hp to output o: add the bias, clamp below at 0, contract with column o of the
    second weight w2 (given as w2 j o), add the second bias. -/
def tail (b1 : Fin 64 → EReal) (w2 : Fin 64 → Fin 64 → EReal) (b2 : Fin 64 → EReal) (hp : Fin 64 → EReal)
    (o : Fin 64) : EReal :=
  (∑ j : Fin 64, max (hp j + b1 j) 0 * w2 j o) + b2 o

/-- The eight memory tokens of batch row r: columns 15 … 22 of the token array. -/
def toks (seqs : IVec ⟨2, ![262144, 24]⟩ 32) (r : Fin 262144) (c : Fin 8) : BitVec 32 :=
  seqs (ix2 r ⟨15 + c.val, by omega⟩)

/-- The whole result, looked-up form. -/
def G (seqs : IVec ⟨2, ![262144, 24]⟩ 32) (q : IVec ⟨1, ![262144]⟩ 32)
    (E : (⟨2, ![66, 64]⟩ : Shape).Idx → EReal) (W1 : (⟨2, ![64, 128]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![262144, 64]⟩ : Shape).Idx → EReal := fun i =>
  tail (fun j => b1 (ix1 j)) (fun j o => W2 (ix2 o j)) (fun o => b2 (ix1 o))
    (hpreR E W1 (q (ix1 (i 0))) (toks seqs (i 0))) (i 1)

/-- The whole result, folded form. -/
def GK (seqs : IVec ⟨2, ![262144, 24]⟩ 32) (q : IVec ⟨1, ![262144]⟩ 32)
    (E : (⟨2, ![66, 64]⟩ : Shape).Idx → EReal) (W1 : (⟨2, ![64, 128]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![262144, 64]⟩ : Shape).Idx → EReal := fun i =>
  tail (fun j => b1 (ix1 j)) (fun j o => W2 (ix2 o j)) (fun o => b2 (ix1 o))
    (hpreK (tab E W1) (q (ix1 (i 0))) (toks seqs (i 0))) (i 1)

/-! ## The two pre-activations are one number -/

/-- A finite sum of reals, read as an extended real, is the sum of the terms read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The float word 0x3E000000 denotes the real 1/8. -/
theorem c8_eq : Ideal.ofBits .f32 0x3E000000#32 = ((1 / 8 : ℝ) : EReal) := by
  simp [Ideal.ofBits, Ideal.ieee, -EReal.coe_mul]; norm_num

/-- The float word 0x41000000 denotes the real 8. -/
theorem eight_eq : Ideal.ofBits .f32 0x41000000#32 = ((8 : ℝ) : EReal) := by
  simp [Ideal.ofBits, Ideal.ieee, -EReal.coe_mul]; norm_num

/-- The indicator as a real number: 1 when the word is the token, 0 when not. -/
theorem hot_eq (a : BitVec 32) (v : Fin 66) : hot a v = (((if a = BitVec.ofNat 32 v.val then 1 else 0 : ℝ)) : EReal) := by
  unfold hot
  by_cases h : a = BitVec.ofNat 32 v.val
  · rw [if_pos h]
    have : IntOp.cmpi .eq a (BitVec.ofNat 32 v.val) = 1#1 := by
      unfold IntOp.cmpi; simp [h]
    rw [this]; norm_num
  · rw [if_neg h]
    have : IntOp.cmpi .eq a (BitVec.ofNat 32 v.val) = 0#1 := by
      unfold IntOp.cmpi
      have hb : (a == BitVec.ofNat 32 v.val) = false := by simpa using h
      rw [hb]; rfl
    rw [this]; norm_num

/-- A word below 66 is its own row: it is not negative, and the clamp leaves it. -/
theorem row_of_lt (a : BitVec 32) (h : a.toNat < 66) : row a = ⟨a.toNat, h⟩ := by
  unfold row
  apply Fin.ext
  have hs : IntOp.cmpi .slt a 0#32 = 0#1 := by
    unfold IntOp.cmpi
    have : a.slt 0#32 = false := by
      simp only [BitVec.slt, decide_eq_false_iff_not, not_lt]
      have e : a.toInt = (a.toNat : Int) := by
        rw [BitVec.toInt_eq_toNat_cond, if_pos (by omega)]
      rw [e]; simp
    rw [this]; rfl
  show min (Scalar.select (IntOp.cmpi .slt a 0#32) (IntOp.addi a 66#32) a).toInt.toNat 65 = a.toNat
  rw [hs, ValueIdx.select_zero]
  have e : a.toInt = (a.toNat : Int) := by
    rw [BitVec.toInt_eq_toNat_cond, if_pos (by omega)]
  rw [e]
  simp only [Int.toNat_natCast]
  omega

/-- Whether a word below 66 is the token v: whether its value is v. -/
theorem eq_ofNat_iff (a : BitVec 32) (h : a.toNat < 66) (v : Fin 66) :
    a = BitVec.ofNat 32 v.val ↔ (⟨a.toNat, h⟩ : Fin 66) = v := by
  constructor
  · intro e; apply Fin.ext; show a.toNat = v.val; rw [e]; simp <;> omega
  · intro e; apply BitVec.eq_of_toNat_eq; rw [← e]; simp <;> omega

/-- The identity over the reals: an indicator picks a table row, the counts distribute over the eight memory tokens,
    and the division by 8 commutes with the second contraction. -/
theorem real_bridge (e : Fin 66 → Fin 64 → ℝ) (wa wb : Fin 64 → ℝ) (vq : Fin 66) (vm : Fin 8 → Fin 66) :
    (∑ v : Fin 66, (if vq = v then (1 : ℝ) else 0) * (∑ k, e v k * wa k))
      + (∑ v : Fin 66, (∑ c : Fin 8, if vm c = v then (1 : ℝ) else 0) * ((∑ k, e v k * wb k) * (1 / 8)))
    = (∑ k, e vq k * wa k) + ∑ k, ((∑ c, e (vm c) k) * (1 / 8)) * wb k := by
  congr 1
  · simp [ite_mul, Finset.sum_ite_eq]
  · simp only [Finset.sum_mul]
    rw [Finset.sum_comm]
    simp only [ite_mul, one_mul, zero_mul, Finset.sum_ite_eq, Finset.mem_univ, if_true]
    rw [Finset.sum_comm]
    refine Finset.sum_congr rfl fun k _ => Finset.sum_congr rfl fun c _ => ?_
    ring

section
variable (E : (⟨2, ![66, 64]⟩ : Shape).Idx → EReal) (W1 : (⟨2, ![64, 128]⟩ : Shape).Idx → EReal)
  (tq : BitVec 32) (tm : Fin 8 → BitVec 32)

/-- The left factor's first 66 places are the query's indicator … -/
theorem lhs_lo (v : Fin 66) : lhs tq tm (Fin.castAdd 66 v) = hot tq v := by
  unfold lhs
  rw [dif_pos (show (Fin.castAdd 66 v : Fin 132).val < 66 from v.isLt)]
  rfl

/-- … and its last 66 the counts of the memory tokens. -/
theorem lhs_hi (v : Fin 66) : lhs tq tm (Fin.natAdd 66 v) = ∑ c : Fin 8, hot (tm c) v := by
  unfold lhs
  rw [dif_neg (show ¬ (Fin.natAdd 66 v : Fin 132).val < 66 by simp)]
  refine Finset.sum_congr rfl fun c _ => congrArg (hot (tm c)) (Fin.ext ?_)
  show 66 + v.val - 66 = v.val
  omega

/-- The table's first 66 rows contract E with the first half of a row of W1 … -/
theorem tab_lo (v : Fin 66) (j : Fin 64) :
    tab E W1 (Fin.castAdd 66 v) j = ∑ k : Fin 64, E (ix2 v k) * W1 (ix2 j (Fin.castAdd 64 k)) := by
  unfold tab
  rw [dif_pos (show (Fin.castAdd 66 v : Fin 132).val < 66 from v.isLt)]
  rfl

/-- … and its last 66 with the second half, times the constant. -/
theorem tab_hi (v : Fin 66) (j : Fin 64) :
    tab E W1 (Fin.natAdd 66 v) j
      = (∑ k : Fin 64, E (ix2 v k) * W1 (ix2 j (Fin.natAdd 64 k))) * Ideal.ofBits .f32 0x3E000000#32 := by
  unfold tab
  rw [dif_neg (show ¬ (Fin.natAdd 66 v : Fin 132).val < 66 by simp)]
  have hv : (⟨(Fin.natAdd 66 v : Fin 132).val - 66, by have := v.isLt; simp <;> omega⟩ : Fin 66) = v := Fin.ext (by simp)
  simp only [hv]
  rfl

/-- The looked-up input's first 64 entries are the query's row of E … -/
theorem xrow_lo (k : Fin 64) : xrow E tq tm (Fin.castAdd 64 k) = E (ix2 (row tq) k) := by
  unfold xrow
  rw [dif_pos (show (Fin.castAdd 64 k : Fin 128).val < 64 from k.isLt)]
  rfl

/-- … and its last 64 the quotient of the summed memory rows by the constant. -/
theorem xrow_hi (k : Fin 64) : xrow E tq tm (Fin.natAdd 64 k)
    = Ideal.div (Ideal.ofBits .f32 0x00000000#32 + ∑ c : Fin 8, E (ix2 (row (tm c)) k)) (Ideal.ofBits .f32 0x41000000#32) := by
  unfold xrow
  rw [dif_neg (show ¬ (Fin.natAdd 64 k : Fin 128).val < 64 by simp)]
  have hk : (⟨(Fin.natAdd 64 k : Fin 128).val - 64, by have := k.isLt; simp <;> omega⟩ : Fin 64) = k := Fin.ext (by simp)
  simp only [hk]

end

/-- THE BRIDGE for one batch row: with real entries in E and W1 and all nine tokens words 0 … 65, the folded and
    the looked-up pre-activations are the same number. -/
theorem hpreK_eq_hpreR (E : (⟨2, ![66, 64]⟩ : Shape).Idx → EReal) (W1 : (⟨2, ![64, 128]⟩ : Shape).Idx → EReal)
    (hE : ∀ i, ∃ x : ℝ, E i = (x : EReal)) (hW : ∀ i, ∃ x : ℝ, W1 i = (x : EReal))
    (tq : BitVec 32) (tm : Fin 8 → BitVec 32) (hq : tq.toNat < 66) (hm : ∀ c, (tm c).toNat < 66) (j : Fin 64) :
    hpreK (tab E W1) tq tm j = hpreR E W1 tq tm j := by
  choose e he using hE
  choose w hw using hW
  have hrq := row_of_lt tq hq
  have hrm := fun c => row_of_lt (tm c) (hm c)
  unfold hpreK hpreR
  rw [show (∑ u : Fin 132, lhs tq tm u * tab E W1 u j) = ∑ u : Fin (66 + 66), lhs tq tm u * tab E W1 u j from rfl,
    Fin.sum_univ_add,
    show (∑ k : Fin 128, xrow E tq tm k * W1 (ix2 j k)) = ∑ k : Fin (64 + 64), xrow E tq tm k * W1 (ix2 j k) from rfl,
    Fin.sum_univ_add]
  simp only [lhs_lo, lhs_hi, tab_lo, tab_hi, xrow_lo, xrow_hi]
  simp only [he, hw, hot_eq, c8_eq, eight_eq, Ideal.ofBits_zero_f32, hrq, hrm, Ideal.div_coe (by norm_num : (8 : ℝ) ≠ 0),
    eq_ofNat_iff tq hq, fun c => eq_ofNat_iff (tm c) (hm c)]
  simp only [zero_add, ← EReal.coe_mul, ← coe_sum, ← EReal.coe_add]
  exact congrArg _ (real_bridge (fun v k => e (ix2 v k)) (fun k => w (ix2 j (Fin.castAdd 64 k)))
    (fun k => w (ix2 j (Fin.natAdd 64 k))) ⟨tq.toNat, hq⟩ (fun c => ⟨(tm c).toNat, hm c⟩))

/-- So the two whole results are one function under those hypotheses on every batch row. -/
theorem GK_eq_G (seqs : IVec ⟨2, ![262144, 24]⟩ 32) (q : IVec ⟨1, ![262144]⟩ 32)
    (E : (⟨2, ![66, 64]⟩ : Shape).Idx → EReal) (W1 : (⟨2, ![64, 128]⟩ : Shape).Idx → EReal)
    (b1 : (⟨1, ![64]⟩ : Shape).Idx → EReal) (W2 : (⟨2, ![64, 64]⟩ : Shape).Idx → EReal)
    (b2 : (⟨1, ![64]⟩ : Shape).Idx → EReal)
    (hE : ∀ i, ∃ x : ℝ, E i = (x : EReal)) (hW : ∀ i, ∃ x : ℝ, W1 i = (x : EReal))
    (hq : ∀ r : Fin 262144, (q (ix1 r)).toNat < 66)
    (hm : ∀ (r : Fin 262144) (c : Fin 8), (toks seqs r c).toNat < 66) :
    GK seqs q E W1 b1 W2 b2 = G seqs q E W1 b1 W2 b2 := by
  funext i
  unfold GK G
  congr 1
  funext j
  exact hpreK_eq_hpreR E W1 hE hW _ _ (hq (i 0)) (fun c => hm (i 0) c) j

end Cert.TokenMlp

end
-- ==== Proof.PreFacts.lean ====
/-
  What the precondition says of the inputs: the embedding table and the first weight hold real numbers, and every
  token the programs look up is a word 0 … 65.

  The precondition is one bit: the conjunction of seven "for all entries" tests. Five say |x| < +∞ at every entry
  of a float input; one says 0 ≤ w < 66, signed, at every entry of columns 15 … 22 of the token array; the last says
  the same of every query token. The bit being 1 makes each of the seven 1, a "for all" test being 1 makes its
  test 1 at every entry, and the two kinds of test are read back below: |x| < +∞ leaves x a real number, and a word
  in [0, 66) signed has value below 66.
-/
import proofs.«404180_j77068893160204_2_alg».proof.Pre_finite_inputs
import proofs.«404180_j77068893160204_2_alg».proof.Proof.Spec
import Idealize.ShloMosaic.Lib.ReduceAll
import Idealize.ShloMosaic.Lib.StableHlo.Predicate

noncomputable section

namespace Cert.TokenMlp.Pre

open Cert.Pre_finite_inputs Idealize.ShloMosaic Idealize.ShloMosaic.ValueIdx Cert.TokenMlp

/-- An extended real x with max x (−x) < +∞ is a real number: at x = +∞ and at x = −∞ the maximum is +∞ itself.
    (+∞ is what the float word 0x7F800000 denotes.) -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  unfold Ideal.cmp at h
  rw [StableHlo.Predicate.ofBool_eq_one_iff] at h
  simp only [decide_eq_true_eq] at h
  induction x using EReal.rec with
  | bot => simp at h
  | coe r => exact ⟨r, rfl⟩
  | top => simp at h

/-- A 32-bit word w with 0 ≤ w and w < 66 as signed integers has unsigned value below 66: a word whose unsigned
    value is 2³¹ or more reads as a negative integer, and any other reads as its unsigned value. -/
theorem toNat_lt_66 (w : BitVec 32) (h0 : IntOp.cmpi .sge w 0#32 = 1#1) (h1 : IntOp.cmpi .slt w 66#32 = 1#1) :
    w.toNat < 66 := by
  unfold IntOp.cmpi at h0 h1
  rw [StableHlo.Predicate.ofBool_eq_one_iff] at h0 h1
  have g0 : (0#32 : BitVec 32).toInt ≤ w.toInt := by simpa [BitVec.sle] using h0
  have g1 : w.toInt < (66#32 : BitVec 32).toInt := by simpa [BitVec.slt] using h1
  have e0 : (0#32 : BitVec 32).toInt = 0 := by decide
  have e66 : (66#32 : BitVec 32).toInt = 66 := by decide
  have hw := w.isLt
  have e : w.toInt = if 2 * w.toNat < 2 ^ 32 then (w.toNat : Int) else (w.toNat : Int) - 2 ^ 32 :=
    BitVec.toInt_eq_toNat_cond w
  by_cases hc : 2 * w.toNat < 2 ^ 32
  · rw [if_pos hc] at e; omega
  · rw [if_neg hc] at e; omega

theorem of_pre [Cert.Pre_finite_inputs.Facts] (a0 : IVec S262144x24 32) (a1 : IVec S262144 32) (a2 : FVec Ideal S66x64 .f32)
    (a3 : FVec Ideal S64x128 .f32) (a4 : FVec Ideal S64 .f32) (a5 : FVec Ideal S64x64 .f32) (a6 : FVec Ideal S64 .f32)
    (h : Cert.Pre_finite_inputs.fn (F := Ideal) a0 a1 a2 a3 a4 a5 a6 = fun _ => 1#1) :
    (∀ i, ∃ x : ℝ, a2 i = (x : EReal)) ∧ (∀ i, ∃ x : ℝ, a3 i = (x : EReal))
      ∧ (∀ r : Fin 262144, (a1 (ix1 r)).toNat < 66) ∧ (∀ (r : Fin 262144) (c : Fin 8), (toks a0 r c).toNat < 66) := by
  -- the scalar shape has one index, so each "for all" test reduces every entry into the one result
  haveI : Subsingleton S_.Idx := ⟨fun a b => funext fun d => d.elim0⟩
  have h0 := congrFun h ValueIdx.ix0
  dsimp only [fn, fn_part1, fn_part2] at h0
  -- the conjunction nests to the left: ((((((E ∧ W1) ∧ b1) ∧ W2) ∧ b2) ∧ memory tokens) ∧ query tokens)
  obtain ⟨h1, hq⟩ := IntOp.andi_eq_one.1 h0
  obtain ⟨h2, ht⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨hE, hW⟩ := IntOp.andi_eq_one.1 h5
  refine ⟨fun i => ?_, fun i => ?_, fun r => ?_, fun r c => ?_⟩
  · -- entry i of E: its test is max x (−x) < +∞ at x = E i
    exact real_of_abs_lt (a2 i) (Host.reduce_andi_all _ _ _ _ ix0 hE i)
  · -- entry i of W1, likewise
    exact real_of_abs_lt (a3 i) (Host.reduce_andi_all _ _ _ _ ix0 hW i)
  · -- query token r: its test is (0 ≤ w) ∧ (w < 66) at w = q r, the two bounds being the constants 0 and 66 everywhere
    obtain ⟨g0, g1⟩ := IntOp.andi_eq_one.1 (Host.reduce_andi_all _ _ _ _ ix0 hq (ix1 r))
    exact toNat_lt_66 _ g0 g1
  · -- memory token (r, c): entry (r, c) of the columns 15 … 22 is entry (r, 15 + c) of the token array
    obtain ⟨g0, g1⟩ := IntOp.andi_eq_one.1 (Host.reduce_andi_all _ _ _ _ ix0 ht (ix2 r c))
    have e : extractStridedSlice S262144x8 ![0, 15] a0 Facts.slices_S262144x24_S262144x8_0_15 (ix2 r c) = toks a0 r c := by
      unfold extractStridedSlice toks
      refine congrArg a0 (funext fun a => Fin.ext ?_)
      match a with
      | ⟨0, _⟩ => simp
      | ⟨1, _⟩ => simp
    rw [← e]
    exact toNat_lt_66 _ g0 g1

end Cert.TokenMlp.Pre

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.LibRows3.lean ====
/-
  Rows of a matrix taken at a rank-3 array of index words, read at one index.

  The host gather over an operand of shape [n, c] and an array of integer words of shape [e, m, 1], with offset
  axis 2, collapsed slice axis 0, start index map [0], index vector axis 2 and slice sizes [1, c] — what h[idx] of
  a matrix h at an [e, m] array of indices lowers to. Its element (p, b, q) is the operand's element (k, q), where k
  is the word idx[p, b, 0] read as a signed integer and clamped into [0, n − 1] (rowGather3_apply).

  Everything is symbolic in the extents n, e, m, c and the word width w; no index set is enumerated.
-/
import Idealize.ShloMosaic.PureOps.Ideal
import Idealize.ShloMosaic.Lib.ValueIdx

noncomputable section

namespace Cert.LibRows3

open Idealize.ShloMosaic Idealize.ShloMosaic.ValueIdx

/-! ## Rows taken at a rank-3 array of words -/

section Gather3
variable {α : Type}

/-- The dimension numbers of "rows of an [n, c] operand at an [e, m, 1] array of start indices": the result
    [e, m, c] has one offset axis (2), the operand's axis 0 is collapsed and is the one the start index names,
    the slice is one whole row. Their conditions wf are a parameter. -/
abbrev rowGather3Dims (n e m c : Nat)
    (wf : GatherDims.WF ⟨2, ![n, c]⟩ ⟨3, ![e, m, 1]⟩ ⟨3, ![e, m, c]⟩ [2] [0] [] [0] [] 2 ![1, c]) :
    GatherDims ⟨2, ![n, c]⟩ ⟨3, ![e, m, 1]⟩ ⟨3, ![e, m, c]⟩ where
  offsetDims := [2]
  collapsedSliceDims := [0]
  operandBatchingDims := []
  startIndicesBatchingDims := []
  startIndexMap := [0]
  indexVectorDim := 2
  sliceSizes := ![1, c]
  wf := wf

/-- THE ROW GATHER READ AT (p, b, q): the operand at row idx[p, b, 0] — read signed and clamped into
    [0, n − 1] — and column q. -/
theorem rowGather3_apply {n e m c w : Nat} (hn : 0 < n)
    (wf : GatherDims.WF ⟨2, ![n, c]⟩ ⟨3, ![e, m, 1]⟩ ⟨3, ![e, m, c]⟩ [2] [0] [] [0] [] 2 ![1, c])
    (x : (⟨2, ![n, c]⟩ : Shape).Idx → α) (idx : IVec ⟨3, ![e, m, 1]⟩ w) (p : Fin e) (b : Fin m) (q : Fin c) :
    Host.gather (rowGather3Dims n e m c wf) x idx (ix3 p b q)
      = x (ix2 ⟨min (idx (ix3 p b (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGather3Dims n e m c wf).start (ix3 p b q) idx 0 + (rowGather3Dims n e m c wf).batchCoord (ix3 p b q) 0
        + (rowGather3Dims n e m c wf).offCoord (ix3 p b q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather3Dims n e m c wf).startIndexMap from List.mem_singleton.mpr rfl)]
    -- the start index of result (p, b, q) is read at (p, b, 0): the two batch coordinates, then the one component
    have hsi : (rowGather3Dims n e m c wf).siIdx (ix3 p b q) ⟨List.idxOf (0 : Fin 2) (rowGather3Dims n e m c wf).startIndexMap,
        List.idxOf_lt_length_iff.2 (List.mem_singleton.mpr rfl)⟩ = ix3 p b (0 : Fin 1) := by
      funext d; refine Fin.ext ?_
      match d with
      | ⟨0, _⟩ => rfl
      | ⟨1, _⟩ => rfl
      | ⟨2, _⟩ => rfl
    rw [hsi]
    rfl
  | ⟨1, _⟩ =>
    -- the column axis: not named by the start index map (start 0), not batching, the result's offset axis
    show (rowGather3Dims n e m c wf).start (ix3 p b q) idx 1 + (rowGather3Dims n e m c wf).batchCoord (ix3 p b q) 1
        + (rowGather3Dims n e m c wf).offCoord (ix3 p b q) 1 = _
    rw [GatherDims.batchCoord_eq_zero _ _ _ List.not_mem_nil]
    have hst : (rowGather3Dims n e m c wf).start (ix3 p b q) idx 1 = 0 := by
      unfold GatherDims.start
      rw [dif_neg (show (1 : Fin 2) ∉ ([0] : List (Fin 2)) by decide)]
    rw [hst]
    simp only [Nat.add_zero, Nat.zero_add]
    rfl

end Gather3

end Cert.LibRows3

end
-- ==== Proof.RefValue.lean ====
/-
  The reference program's result is the looked-up form of the specification, index by index.

  The reference turns each token word into a row of the embedding table E by an array lookup (a negative word
  has 66 added, the result is read signed and clamped into 0 … 65: Spec's row), forms for batch row r the 128
  numbers x = (E's row of the query, then the sum of the eight memory rows from the float zero, divided by the
  float 8), contracts x with row j of W1, adds b1, clamps below at 0, contracts with W2 transposed, adds b2.
  Read one stage at a time at an index built from its coordinates, every stage is the corresponding piece of
  Spec: the lookups are E at (row word, column), the joined array is xrow, the first contraction is hpreR, and
  the rest is tail.

  Three stages choose the element they read by a value or by a coordinate: the lookup of one row per batch row
  (a column of words: LibRows' rowGather_apply), the lookup of eight rows per batch row (a rank-3 array of
  words: LibRows3's rowGather3_apply), and the joining of the two [262144, 64] halves along the second axis (the
  first half for k < 64, the second at k − 64 otherwise).
-/
import proofs.«404180_j77068893160204_2_alg».proof.Proof.Gen.ReferenceIdeal.Read
import proofs.«404180_j77068893160204_2_alg».proof.Proof.Spec
import proofs.«404180_j77068893160204_2_alg».proof.Proof.LibRows
import proofs.«404180_j77068893160204_2_alg».proof.Proof.LibRows3

noncomputable section

open scoped BigOperators

namespace Cert.TokenMlp.Ref

open Cert.ReferenceIdeal Cert.ReferenceIdeal.Read Idealize.ShloMosaic Idealize.ShloMosaic.ValueIdx Cert.TokenMlp Cert.LibRows3

/-! ## The stages of the reference, each read at an index built from its coordinates -/

section Stages

variable (x0 : IVec S262144x24 32) (x1 : IVec S262144 32) (x2 : FVec Ideal S66x64 .f32)
  (x3 : FVec Ideal S64x128 .f32) (x4 : FVec Ideal S64 .f32) (x5 : FVec Ideal S64x64 .f32) (x6 : FVec Ideal S64 .f32)

/-- Columns 15 … 22 of the token array, at (r, c): memory token c of batch row r. -/
theorem v0_at (r : Fin 262144) (c : Fin 8) :
    val_main_v0 (F := Ideal) x0 (ix2 r c) = toks x0 r c := by
  rw [val_main_v0_apply]
  unfold toks
  exact congrArg x0 (funext fun a => Fin.ext (by match a with | ⟨0, _⟩ => rfl | ⟨1, _⟩ => rfl))

/-- The wrapped memory word at (r, c): 66 added when the word is negative. -/
theorem v5_at (r : Fin 262144) (c : Fin 8) :
    val_main_v5 (F := Ideal) x0 (ix2 r c)
      = Scalar.select (IntOp.cmpi .slt (toks x0 r c) 0#32) (IntOp.addi (toks x0 r c) 66#32) (toks x0 r c) := by
  rw [val_main_v5_apply, val_main_v2_apply, val_main_v4_apply, val_main_v1_apply, val_main_v3_apply,
    val_main_c_apply, val_main_c_0_apply, v0_at]

/-- The same word seen as the one component of the start index at (r, c, 0). -/
theorem v6_at (r : Fin 262144) (c : Fin 8) :
    val_main_v6 (F := Ideal) x0 (ix3 r c (0 : Fin 1))
      = Scalar.select (IntOp.cmpi .slt (toks x0 r c) 0#32) (IntOp.addi (toks x0 r c) 66#32) (toks x0 r c) := by
  rw [val_main_v6_apply]
  have h : idx_main_v6 (ix3 r c (0 : Fin 1)) = ix2 r c := funext fun a => Fin.ext (by match a with | ⟨0, _⟩ => rfl | ⟨1, _⟩ => rfl)
  rw [h, v5_at]

/-- The eight looked-up rows: at (r, c, q) the table E at the row of memory token c of batch row r, column q. -/
theorem v7_at (r : Fin 262144) (c : Fin 8) (q : Fin 64) :
    val_main_v7 (F := Ideal) x0 x2 (ix3 r c q) = x2 (ix2 (row (toks x0 r c)) q) := by
  unfold val_main_v7
  refine (rowGather3_apply (n := 66) (e := 262144) (m := 8) (c := 64) (by decide)
    Gen.gather_S66x64_S262144x8x1_S262144x8x64_2_0_n_n_0_2_164_wf x2 (val_main_v6 (F := Ideal) x0) r c q).trans ?_
  refine congrArg (fun t => x2 (ix2 t q)) (Fin.ext ?_)
  show min (val_main_v6 (F := Ideal) x0 (ix3 r c (0 : Fin 1))).toInt.toNat (66 - 1) = (row (toks x0 r c)).val
  rw [v6_at]
  rfl

/-- Their sum over the eight memory tokens, from the float zero. -/
theorem v8_at (r : Fin 262144) (q : Fin 64) :
    val_main_v8 (F := Ideal) x0 x2 (ix2 r q)
      = Ideal.ofBits .f32 0x00000000#32 + ∑ c : Fin 8, x2 (ix2 (row (toks x0 r c)) q) := by
  rw [val_main_v8_apply, val_main_cst_apply]
  refine congrArg₂ (· + ·) rfl (Finset.sum_congr rfl fun c _ => ?_)
  have h : idx_main_v8 (ix2 r q) c = ix3 r c q := funext fun a => Fin.ext (by match a with | ⟨0, _⟩ => rfl | ⟨1, _⟩ => rfl | ⟨2, _⟩ => rfl)
  rw [h, v7_at]

/-- The mean of the eight memory rows: that sum divided by the float 8. -/
theorem v10_at (r : Fin 262144) (q : Fin 64) :
    val_main_v10 (F := Ideal) x0 x2 (ix2 r q)
      = Ideal.div (Ideal.ofBits .f32 0x00000000#32 + ∑ c : Fin 8, x2 (ix2 (row (toks x0 r c)) q))
          (Ideal.ofBits .f32 0x41000000#32) := by
  rw [val_main_v10_apply, val_main_v9_apply, val_main_cst_1_apply, v8_at]
  rfl

/-- The wrapped query word of batch row r, as the one component of the start index at (r, 0). -/
theorem v16_at (r : Fin 262144) :
    val_main_v16 (F := Ideal) x1 (ix2 r (0 : Fin 1))
      = Scalar.select (IntOp.cmpi .slt (x1 (ix1 r)) 0#32) (IntOp.addi (x1 (ix1 r)) 66#32) (x1 (ix1 r)) := by
  rw [val_main_v16_apply]
  have h : idx_main_v16 (ix2 r (0 : Fin 1)) = ix1 r := funext fun a => Fin.ext (by match a with | ⟨0, _⟩ => rfl)
  rw [h, val_main_v15_apply, val_main_v12_apply, val_main_v14_apply, val_main_v11_apply, val_main_v13_apply,
    val_main_c_2_apply, val_main_c_3_apply]

/-- The query's looked-up row: at (r, q) the table E at the row of the query of batch row r, column q. -/
theorem v17_at (r : Fin 262144) (q : Fin 64) :
    val_main_v17 (F := Ideal) x1 x2 (ix2 r q) = x2 (ix2 (row (x1 (ix1 r))) q) := by
  unfold val_main_v17
  refine (Cert.LibRows.rowGather_apply (n := 66) (e := 262144) (c := 64) (by decide)
    Gen.gather_S66x64_S262144x1_S262144x64_1_0_n_n_0_1_164_wf x2 (val_main_v16 (F := Ideal) x1) r q).trans ?_
  refine congrArg (fun t => x2 (ix2 t q)) (Fin.ext ?_)
  show min (val_main_v16 (F := Ideal) x1 (ix2 r (0 : Fin 1))).toInt.toNat (66 - 1) = (row (x1 (ix1 r))).val
  rw [v16_at]
  rfl

/-- The two halves joined along the second axis are the first layer's input: at (r, k) the query's row at k
    when k < 64, the mean of the memory rows at k − 64 otherwise. -/
theorem v18_at (r : Fin 262144) (k : Fin 128) :
    val_main_v18 (F := Ideal) x0 x1 x2 (ix2 r k) = xrow x2 (x1 (ix1 r)) (toks x0 r) k := by
  unfold val_main_v18 xrow
  by_cases h : k.val < 64
  · rw [dif_pos h]
    refine (concatenate_pair_apply_left (1 : Fin 2) (val_main_v17 (F := Ideal) x1 x2) (val_main_v10 (F := Ideal) x0 x2)
      Gen.concatenates_S262144x64_S262144x64_S262144x128_d1 (ix2 r k) rfl (ix2 r ⟨k.val, h⟩)
      (fun b => by match b with | ⟨0, _⟩ => rfl | ⟨1, _⟩ => rfl)).trans ?_
    exact v17_at x1 x2 r ⟨k.val, h⟩
  · rw [dif_neg h]
    refine (concatenate_pair_apply_right (1 : Fin 2) (val_main_v17 (F := Ideal) x1 x2) (val_main_v10 (F := Ideal) x0 x2)
      Gen.concatenates_S262144x64_S262144x64_S262144x128_d1 (ix2 r k) rfl rfl (ix2 r ⟨k.val - 64, by omega⟩)
      (fun b hb => by
        match b with
        | ⟨0, _⟩ => rfl
        | ⟨1, _⟩ => exact absurd rfl hb)
      (by show k.val - 64 + 64 = k.val; omega)).trans ?_
    exact v10_at x0 x2 r ⟨k.val - 64, by omega⟩

/-- The first contraction, against W1 transposed: at (r, j) the sum over k of the input at k times W1 j k. -/
theorem v20_at (r : Fin 262144) (j : Fin 64) :
    val_main_v20 (F := Ideal) x0 x1 x2 x3 (ix2 r j) = hpreR x2 x3 (x1 (ix1 r)) (toks x0 r) j := by
  rw [val_main_v20_apply]
  unfold hpreR
  refine Finset.sum_congr rfl fun k _ => ?_
  have hl : lidx_main_v20 (ix2 r j) k = ix2 r k := funext fun a => Fin.ext (by match a with | ⟨0, _⟩ => rfl | ⟨1, _⟩ => rfl)
  have hr : ridx_main_v20 (ix2 r j) k = ix2 k j := funext fun a => Fin.ext (by match a with | ⟨0, _⟩ => rfl | ⟨1, _⟩ => rfl)
  have ht : idx_main_v19 (ix2 k j) = ix2 j k := funext fun a => Fin.ext (by match a with | ⟨0, _⟩ => rfl | ⟨1, _⟩ => rfl)
  rw [hl, hr, v18_at, val_main_v19_apply, ht]

/-- The hidden layer: the pre-activation plus b1, clamped below at 0 (the float zero is the number 0). -/
theorem v24_at (r : Fin 262144) (j : Fin 64) :
    val_main_v24 (F := Ideal) x0 x1 x2 x3 x4 (ix2 r j)
      = max (hpreR x2 x3 (x1 (ix1 r)) (toks x0 r) j + x4 (ix1 j)) 0 := by
  have hb : idx_main_v21 (idx_main_v22 (ix2 r j)) = ix1 j := funext fun a => Fin.ext (by match a with | ⟨0, _⟩ => rfl)
  rw [val_main_v24_apply, val_main_v23_apply, v20_at, val_main_v22_apply, val_main_v21_apply, hb,
    val_main_call0_v0_apply, val_main_call0_cst_apply]
  simp only [Ideal.maximumf_def, Ideal.addf_def, Ideal.ofBits_def, Ideal.ofBits_zero_f32]

end Stages

/-- The reference's result at (r, o): the hidden layer contracted with column o of W2 transposed, plus b2 o —
    Spec's tail of the looked-up pre-activation. -/
theorem ref_eq_G (x0 : IVec S262144x24 32) (x1 : IVec S262144 32) (x2 : FVec Ideal S66x64 .f32)
    (x3 : FVec Ideal S64x128 .f32) (x4 : FVec Ideal S64 .f32) (x5 : FVec Ideal S64x64 .f32) (x6 : FVec Ideal S64 .f32) :
    val_main_v29 (F := Ideal) x0 x1 x2 x3 x4 x5 x6 = G x0 x1 x2 x3 x4 x5 x6 := by
  funext i
  obtain ⟨r, o, rfl⟩ : ∃ (r : Fin 262144) (o : Fin 64), i = ix2 r o := ⟨i 0, i 1, eq_ix2 i⟩
  have hb : idx_main_v27 (idx_main_v28 (ix2 r o)) = ix1 o := funext fun a => Fin.ext (by match a with | ⟨0, _⟩ => rfl)
  rw [val_main_v29_apply, val_main_v26_apply, val_main_v28_apply, val_main_v27_apply, hb]
  show (∑ k : Fin 64, _) + x6 (ix1 o)
    = tail (fun j => x4 (ix1 j)) (fun j o => x5 (ix2 o j)) (fun o => x6 (ix1 o))
        (hpreR x2 x3 (x1 (ix1 r)) (toks x0 r)) o
  unfold tail
  refine congrArg (· + x6 (ix1 o)) (Finset.sum_congr rfl fun j _ => ?_)
  have hl : lidx_main_v26 (ix2 r o) j = ix2 r j := funext fun a => Fin.ext (by match a with | ⟨0, _⟩ => rfl | ⟨1, _⟩ => rfl)
  have hr : ridx_main_v26 (ix2 r o) j = ix2 j o := funext fun a => Fin.ext (by match a with | ⟨0, _⟩ => rfl | ⟨1, _⟩ => rfl)
  have ht : idx_main_v25 (ix2 j o) = ix2 o j := funext fun a => Fin.ext (by match a with | ⟨0, _⟩ => rfl | ⟨1, _⟩ => rfl)
  rw [hl, hr, v24_at, val_main_v25_apply, ht]

end Cert.TokenMlp.Ref

end
-- ==== Proof.Body.lean ====
/-
  What the kernel body leaves in its output block, at one index, is the folded form of the specification over the
  body's input blocks.

  A row p of the block carries a query word (the one column of the second block) and eight memory words (columns
  15 … 22 of the first block). The body compares each word with the lane numbers 0 … 65: the query's comparison
  gives 66 lanes holding the indicator of "the query is v", the eight memory comparisons are added up, from zero,
  into 66 lanes holding the number of memory words equal to v. The two are laid side by side into 132 lanes, which
  is the left factor of the specification; contracted with the 132 × 64 table this is the folded pre-activation.
  Adding the first bias, clamping below at 0, contracting with the 64 × 64 weight and adding the second bias is the
  specification's tail. Each step below reads one of these operations at a row and a lane (or a column); the last
  theorem puts them together.
-/
import proofs.«404180_j77068893160204_2_alg».proof.Proof.Gen.KernelIdeal.Frame
import proofs.«404180_j77068893160204_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TokenMlp.Body

open Cert.KernelIdeal Cert.KernelIdeal.Gen Idealize.ShloMosaic Idealize.ShloMosaic.ValueIdx Cert.TokenMlp

/-! ## Reading the layout operations at a row and a lane -/

/-- The offsets of a whole block of rank 2 are zero on both axes. -/
theorem hz2 : (![0, 0] : Fin 2 → Nat) = fun _ => 0 := funext fun a => by fin_cases a <;> rfl
/-- The offset of a whole block of rank 1 is zero. -/
theorem hz1 : (![0] : Fin 1 → Nat) = fun _ => 0 := funext fun a => by fin_cases a <;> rfl

/-- A column broadcast over 66 lanes reads the column's entry of the row. -/
theorem lanes_apply (col : IVec S8192x1 32) (p : Fin 8192) (v : Fin 66) :
    broadcastTo S8192x66 col broadcasts_S8192x1_S8192x66 (ix2 p v) = col (ix2 p (0 : Fin 1)) := by
  refine broadcastTo_apply col broadcasts_S8192x1_S8192x66 (ix2 p v) (ix2 p (0 : Fin 1)) fun ax => ?_
  match ax with
  | ⟨0, _⟩ => rfl
  | ⟨1, _⟩ => rfl

/-- The one-hot of a column against the lane numbers: at lane v, whether the row's word is the token v. -/
theorem onehot_apply (col : IVec S8192x1 32) (p : Fin 8192) (v : Fin 66) :
    (sitofp .f32 (extui 32 (cmpi .eq (broadcastTo S8192x66 col broadcasts_S8192x1_S8192x66)
      (iota .tc S8192x66 32 [1] iota_S8192x66_d1_w32)) natLt_1_32) : FVec Ideal S8192x66 .f32) (ix2 p v)
      = hot (col (ix2 p (0 : Fin 1))) v := by
  show (((((IntOp.cmpi .eq (broadcastTo S8192x66 col broadcasts_S8192x1_S8192x66 (ix2 p v))
      (iota .tc S8192x66 32 [1] iota_S8192x66_d1_w32 (ix2 p v))).setWidth 32).toInt : ℝ) : EReal)) = _
  rw [lanes_apply, iota_single_apply]
  rfl

/-- Column c of the eight memory columns, cut out as a column, reads the row's entry there. -/
theorem col_apply (v9 : IVec S8192x8 32) (c : Nat) (hc : c < 8) (h : S8192x8.Slices ![0, c] S8192x1) (p : Fin 8192) :
    extractStridedSlice S8192x1 ![0, c] v9 h (ix2 p (0 : Fin 1)) = v9 (ix2 p ⟨c, hc⟩) :=
  slice2_axis1_apply c v9 h p (0 : Fin 1) ⟨c, hc⟩ rfl

/-- The eight memory columns are columns 15 … 22 of the token block. -/
theorem mem_apply (x0 : Vec Ideal S8192x24 .i32) (p : Fin 8192) (c : Fin 8) :
    k0_pay4 x0 (ix2 p c) = x0 (ix2 p ⟨15 + c.val, by omega⟩) := by
  unfold k0_pay4
  exact slice2_axis1_apply 15 x0 slices_S8192x24_o0_15_S8192x8 p c ⟨15 + c.val, by omega⟩ rfl

/-- The one-hot of memory column c against the lane numbers. -/
theorem memhot_apply (x0 : Vec Ideal S8192x24 .i32) (c : Nat) (hc : c < 8) (h : S8192x8.Slices ![0, c] S8192x1)
    (p : Fin 8192) (v : Fin 66) :
    (sitofp .f32 (extui 32 (cmpi .eq (broadcastTo S8192x66 (extractStridedSlice S8192x1 ![0, c] (k0_pay4 x0) h)
        broadcasts_S8192x1_S8192x66) (iota .tc S8192x66 32 [1] iota_S8192x66_d1_w32)) natLt_1_32)
      : FVec Ideal S8192x66 .f32) (ix2 p v)
      = hot (x0 (ix2 p ⟨15 + c, by omega⟩)) v := by
  rw [onehot_apply, col_apply _ c hc, mem_apply]

/-- The bias row broadcast down the block reads the bias at the column. -/
theorem bias_apply (b : Vec Ideal S64 .f32) (p : Fin 8192) (j : Fin 64) :
    broadcastTo S8192x64 (shapeCast S1x64 b shapeCasts_S64_S1x64) broadcasts_S1x64_S8192x64 (ix2 p j) = b (ix1 j) := by
  rw [broadcastTo_1b_ab_apply, shapeCast_a_1a_apply]

/-- The joined 132 lanes read the first piece below lane 66 … -/
theorem cat_apply_left (a b : FVec Ideal S8192x66 .f32) (p : Fin 8192) (u : Fin 132) (h : u.val < 66) :
    concatenate S8192x132 1 [⟨S8192x66, a⟩, ⟨S8192x66, b⟩] concatenates_S8192x66_S8192x66_S8192x132_d1 (ix2 p u)
      = a (ix2 p ⟨u.val, h⟩) :=
  concatenate_pair_apply_left (1 : Fin S8192x132.rank) a b concatenates_S8192x66_S8192x66_S8192x132_d1 (ix2 p u) rfl
    (ix2 p ⟨u.val, h⟩) (fun bb => by
      match bb with
      | ⟨0, _⟩ => rfl
      | ⟨1, _⟩ => rfl)

/-- … and the second piece from lane 66 on, 66 lanes back. -/
theorem cat_apply_right (a b : FVec Ideal S8192x66 .f32) (p : Fin 8192) (u : Fin 132) (h : ¬ u.val < 66) :
    concatenate S8192x132 1 [⟨S8192x66, a⟩, ⟨S8192x66, b⟩] concatenates_S8192x66_S8192x66_S8192x132_d1 (ix2 p u)
      = b (ix2 p ⟨u.val - 66, by omega⟩) :=
  concatenate_pair_apply_right (1 : Fin S8192x132.rank) a b concatenates_S8192x66_S8192x66_S8192x132_d1 (ix2 p u) rfl rfl
    (ix2 p ⟨u.val - 66, by omega⟩) (fun bb hb => by
      match bb with
      | ⟨0, _⟩ => rfl
      | ⟨1, _⟩ => exact absurd rfl hb) (by
      show u.val - 66 + 66 = u.val
      omega)

/-! ## The two contractions as sums

For a product of a [8192, K] block with a [K, 64] matrix the left operand's index at output (p, j) and contraction
coordinate k is (p, k) and the right operand's is (k, j): one statement per coordinate. -/

theorem lhs_mm1_0 (i : S8192x64.Idx) (q : dot_S8192x132_S132x64_S8192x64_1_0_0_1_n_n.contr.Idx) :
    (dot_S8192x132_S132x64_S8192x64_1_0_0_1_n_n.lhsIdx i q 0).val = (i 0).val := by
  unfold DotDims.lhsIdx
  rw [dif_neg (show ¬(0 : Fin S8192x132.rank) ∈ dot_S8192x132_S132x64_S8192x64_1_0_0_1_n_n.lhsBatch by decide), dif_pos (show (0 : Fin S8192x132.rank) ∈ dot_S8192x132_S132x64_S8192x64_1_0_0_1_n_n.lhsNonContracting by decide)]
  rfl
theorem lhs_mm1_1 (i : S8192x64.Idx) (q : dot_S8192x132_S132x64_S8192x64_1_0_0_1_n_n.contr.Idx) :
    (dot_S8192x132_S132x64_S8192x64_1_0_0_1_n_n.lhsIdx i q 1).val = (q ⟨0, by decide⟩).val :=
  dot_S8192x132_S132x64_S8192x64_1_0_0_1_n_n.lhsIdx_val_of_single rfl i q
theorem rhs_mm1_0 (i : S8192x64.Idx) (q : dot_S8192x132_S132x64_S8192x64_1_0_0_1_n_n.contr.Idx) :
    (dot_S8192x132_S132x64_S8192x64_1_0_0_1_n_n.rhsIdx i q 0).val = (q ⟨0, by decide⟩).val :=
  dot_S8192x132_S132x64_S8192x64_1_0_0_1_n_n.rhsIdx_val_of_single rfl i q
theorem rhs_mm1_1 (i : S8192x64.Idx) (q : dot_S8192x132_S132x64_S8192x64_1_0_0_1_n_n.contr.Idx) :
    (dot_S8192x132_S132x64_S8192x64_1_0_0_1_n_n.rhsIdx i q 1).val = (i 1).val := by
  unfold DotDims.rhsIdx
  rw [dif_neg (show ¬(1 : Fin S132x64.rank) ∈ dot_S8192x132_S132x64_S8192x64_1_0_0_1_n_n.rhsBatch by decide), dif_pos (show (1 : Fin S132x64.rank) ∈ dot_S8192x132_S132x64_S8192x64_1_0_0_1_n_n.rhsNonContracting by decide)]
  rfl

/-- The first contraction into the zero accumulator, at row p and column j: the sum over the 132 lanes. -/
theorem mm1_apply (l : FVec Ideal S8192x132 .f32) (r : FVec Ideal S132x64 .f32) (p : Fin 8192) (j : Fin 64) :
    matmul dot_S8192x132_S132x64_S8192x64_1_0_0_1_n_n none l r (constant S8192x64 .f32 0x00000000#32) (ix2 p j)
      = ∑ u : Fin 132, l (ix2 p u) * r (ix2 u j) := by
  simp only [matmul]
  rw [Ideal.matmul_constant_zero_apply, ← Equiv.sum_comp (ValueIdx.contrEquiv1 dot_S8192x132_S132x64_S8192x64_1_0_0_1_n_n 132 rfl rfl).symm]
  refine Finset.sum_congr rfl fun k _ => ?_
  have hk := ValueIdx.contrEquiv1_symm_val dot_S8192x132_S132x64_S8192x64_1_0_0_1_n_n 132 rfl rfl k
  have el : dot_S8192x132_S132x64_S8192x64_1_0_0_1_n_n.lhsIdx (ix2 p j) ((ValueIdx.contrEquiv1 dot_S8192x132_S132x64_S8192x64_1_0_0_1_n_n 132 rfl rfl).symm k) = ix2 p k := funext fun a => Fin.ext (by
    match a with
    | ⟨0, _⟩ => exact lhs_mm1_0 _ _
    | ⟨1, _⟩ => exact (lhs_mm1_1 _ _).trans hk)
  have er : dot_S8192x132_S132x64_S8192x64_1_0_0_1_n_n.rhsIdx (ix2 p j) ((ValueIdx.contrEquiv1 dot_S8192x132_S132x64_S8192x64_1_0_0_1_n_n 132 rfl rfl).symm k) = ix2 k j := funext fun a => Fin.ext (by
    match a with
    | ⟨0, _⟩ => exact (rhs_mm1_0 _ _).trans hk
    | ⟨1, _⟩ => exact rhs_mm1_1 _ _)
  rw [el, er]

theorem lhs_mm2_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_mm2_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs_mm2_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs_mm2_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The second contraction into the zero accumulator, at row p and column o: the sum over the 64 hidden units. -/
theorem mm2_apply (l : FVec Ideal S8192x64 .f32) (r : FVec Ideal S64x64 .f32) (p : Fin 8192) (j : Fin 64) :
    matmul dot_S8192x64_S64x64_S8192x64_1_0_0_1_n_n none l r (constant S8192x64 .f32 0x00000000#32) (ix2 p j)
      = ∑ u : Fin 64, l (ix2 p u) * r (ix2 u j) := by
  simp only [matmul]
  rw [Ideal.matmul_constant_zero_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 p j) ((ValueIdx.contrEquiv1 dot_S8192x64_S64x64_S8192x64_1_0_0_1_n_n 64 rfl rfl).symm k) = ix2 p k := funext fun a => Fin.ext (by
    match a with
    | ⟨0, _⟩ => exact lhs_mm2_0 _ _
    | ⟨1, _⟩ => exact (lhs_mm2_1 _ _).trans hk)
  have er : dot_S8192x64_S64x64_S8192x64_1_0_0_1_n_n.rhsIdx (ix2 p j) ((ValueIdx.contrEquiv1 dot_S8192x64_S64x64_S8192x64_1_0_0_1_n_n 64 rfl rfl).symm k) = ix2 k j := funext fun a => Fin.ext (by
    match a with
    | ⟨0, _⟩ => exact (rhs_mm2_0 _ _).trans hk
    | ⟨1, _⟩ => exact rhs_mm2_1 _ _)
  rw [el, er]

/-! ## The pieces of the left factor -/

/-- The query's one-hot block: at lane v, whether the row's query word is the token v. -/
theorem pay5_apply (x1 : Vec Ideal S8192x1 .i32) (p : Fin 8192) (v : Fin 66) :
    k0_pay5 (F := Ideal) x1 (ix2 p v) = hot (x1 (ix2 p (0 : Fin 1))) v := by
  unfold k0_pay5
  rw [shapeCast_self]
  exact onehot_apply x1 p v

/-- The running count after the first five memory columns, from the zero splat. -/
theorem pay6_apply (x0 : Vec Ideal S8192x24 .i32) (p : Fin 8192) (v : Fin 66) :
    k0_pay6 (F := Ideal) x0 (ix2 p v)
      = ((((Ideal.ofBits .f32 0x00000000#32 + hot (x0 (ix2 p ⟨15 + 0, by omega⟩)) v) + hot (x0 (ix2 p ⟨15 + 1, by omega⟩)) v)
          + hot (x0 (ix2 p ⟨15 + 2, by omega⟩)) v) + hot (x0 (ix2 p ⟨15 + 3, by omega⟩)) v) + hot (x0 (ix2 p ⟨15 + 4, by omega⟩)) v := by
  unfold k0_pay6
  simp only [addf_apply, broadcast_apply]
  rw [memhot_apply x0 0 (by omega), memhot_apply x0 1 (by omega), memhot_apply x0 2 (by omega),
    memhot_apply x0 3 (by omega), memhot_apply x0 4 (by omega)]
  rfl

/-- The sixth memory column over the lanes. -/
theorem pay7_apply (x0 : Vec Ideal S8192x24 .i32) (p : Fin 8192) (v : Fin 66) :
    k0_pay7 (F := Ideal) x0 (ix2 p v) = x0 (ix2 p ⟨15 + 5, by omega⟩) := by
  unfold k0_pay7
  rw [lanes_apply, col_apply _ 5 (by omega), mem_apply]

/-- The equality test of two words widened and read as a number. -/
def hotw (a b : BitVec 32) : EReal := ((((IntOp.cmpi .eq a b).setWidth 32).toInt : ℝ) : EReal)

/-- The widened equality test of two lane vectors, converted, at a lane. -/
theorem hotw_apply (A B : IVec S8192x66 32) (i : S8192x66.Idx) :
    (sitofp .f32 (extui 32 (cmpi .eq A B) natLt_1_32) : FVec Ideal S8192x66 .f32) i = hotw (A i) (B i) := rfl

/-- The 132 lanes of the left factor, from the pieces the stored value is computed from: the first 66 the query's
    one-hot, the last 66 the running count plus the one-hots of memory columns 5, 6, 7. -/
def lanes (v9 : IVec S8192x8 32) (v10 : IVec S8192x66 32) (v14 v45 : FVec Ideal S8192x66 .f32) (v47 : IVec S8192x66 32)
    (p : Fin 8192) (u : Fin 132) : EReal :=
  if h : u.val < 66 then v14 (ix2 p ⟨u.val, h⟩)
  else ((v45 (ix2 p ⟨u.val - 66, by omega⟩)
      + hotw (v47 (ix2 p ⟨u.val - 66, by omega⟩)) (v10 (ix2 p ⟨u.val - 66, by omega⟩)))
      + hotw (v9 (ix2 p ⟨6, by omega⟩)) (v10 (ix2 p ⟨u.val - 66, by omega⟩)))
      + hotw (v9 (ix2 p ⟨7, by omega⟩)) (v10 (ix2 p ⟨u.val - 66, by omega⟩))

/-- The stored value at row p and column o: the two layers over the 132 lanes. -/
theorem pay1_apply (v4 : FVec Ideal S132x64 .f32) (v5 : Vec Ideal S64 .f32) (v7 : FVec Ideal S64x64 .f32) (v8 : Vec Ideal S64 .f32)
    (v9 : IVec S8192x8 32) (v10 : IVec S8192x66 32) (v14 v45 : FVec Ideal S8192x66 .f32) (v47 : IVec S8192x66 32)
    (p : Fin 8192) (o : Fin 64) :
    k0_pay1 (F := Ideal) v4 v5 v7 v8 v9 v10 v14 v45 v47 (ix2 p o)
      = tail (fun j => v5 (ix1 j)) (fun j o' => v7 (ix2 j o')) (fun o' => v8 (ix1 o'))
          (fun j => ∑ u : Fin 132, lanes v9 v10 v14 v45 v47 p u * v4 (ix2 u j)) o := by
  unfold k0_pay1 tail
  rw [addf_apply, mm2_apply, bias_apply]
  refine congrArg (· + v8 (ix1 o)) (Finset.sum_congr rfl fun j _ => ?_)
  rw [maximumf_apply, addf_apply, mm1_apply, bias_apply, broadcast_apply]
  show max ((∑ u, _ * v4 (ix2 u j)) + v5 (ix1 j)) (Ideal.ofBits .f32 0x00000000#32) * v7 (ix2 j o)
    = max ((∑ u, lanes v9 v10 v14 v45 v47 p u * v4 (ix2 u j)) + v5 (ix1 j)) 0 * v7 (ix2 j o)
  rw [Ideal.ofBits_zero_f32]
  refine congrArg (fun s => max (s + v5 (ix1 j)) 0 * v7 (ix2 j o)) (Finset.sum_congr rfl fun u _ => ?_)
  refine congrArg (· * v4 (ix2 u j)) ?_
  unfold lanes
  by_cases h : u.val < 66
  · rw [dif_pos h, cat_apply_left _ _ p u h]
  · rw [dif_neg h, cat_apply_right _ _ p u h]
    simp only [addf_apply]
    rw [hotw_apply, hotw_apply, hotw_apply, lanes_apply, lanes_apply, col_apply _ 6 (by omega), col_apply _ 7 (by omega)]

/-! ## The output block at (p, o) -/

/-- The output block at row p and column o is the specification's tail of the folded pre-activation of row p: the
    132 lanes are the specification's left factor (below lane 66 the query's indicator; from lane 66 on the eight
    memory indicators summed, the sum from zero being the sum over the eight columns), and the table and the second
    weight are the blocks themselves, their casts to their own shapes being the identity. -/
theorem out_apply (x0 : Vec Ideal S8192x24 .i32) (x1 : Vec Ideal S8192x1 .i32) (x2 : Vec Ideal S132x64 .f32)
    (x3 : Vec Ideal S64 .f32) (x4 : Vec Ideal S64x64 .f32) (x5 : Vec Ideal S64 .f32) (p : Fin 8192) (o : Fin 64) :
    out0_6 (F := Ideal) x0 x1 x2 x3 x4 x5 (ix2 p o)
      = tail (fun j => x3 (ix1 j)) (fun j o' => x4 (ix2 j o')) (fun o' => x5 (ix1 o'))
          (hpreK (fun u j => x2 (ix2 u j)) (x1 (ix2 p (0 : Fin 1))) (fun c => x0 (ix2 p ⟨15 + c.val, by omega⟩))) o := by
  unfold out0_6
  rw [View.canon_unit_zero hz2]
  simp only [View.ld_unit_zero (S := S8192x24) hz2, View.ld_unit_zero (S := S8192x1) hz2, View.ld_unit_zero (S := S132x64) hz2,
    View.ld_unit_zero (S := S64x64) hz2, View.ld_unit_zero (S := S64) hz1]
  have e2 : k0_pay2 (F := Ideal) x2 = x2 := by unfold k0_pay2; exact shapeCast_self _ _
  have e3 : k0_pay3 (F := Ideal) x4 = x4 := by unfold k0_pay3; exact shapeCast_self _ _
  rw [pay1_apply, e2, e3]
  refine congrArg (fun hp => tail (fun j => x3 (ix1 j)) (fun j o' => x4 (ix2 j o')) (fun o' => x5 (ix1 o')) hp o)
    (funext fun j => ?_)
  unfold hpreK
  refine Finset.sum_congr rfl fun u _ => congrArg (· * x2 (ix2 u j)) ?_
  unfold lanes lhs
  by_cases h : u.val < 66
  · rw [dif_pos h, dif_pos h, pay5_apply]
  · rw [dif_neg h, dif_neg h, pay6_apply, pay7_apply, iota_single_apply, mem_apply, mem_apply, Fin.sum_univ_eight,
      Ideal.ofBits_zero_f32, zero_add]
    rfl

end Cert.TokenMlp.Body

end
-- ==== Proof.HostArrays.lean ====
/-
  The arrays the host computes before the kernel region, read at an index: the folded table, the second weight
  transposed, and the query tokens as a column.
-/
import proofs.«404180_j77068893160204_2_alg».proof.Proof.Gen.KernelIdeal.Frame
import proofs.«404180_j77068893160204_2_alg».proof.Proof.Spec
import Idealize.ShloMosaic.Lib.StableHlo.Run
import Idealize.ShloMosaic.Lib.ValueLayout

noncomputable section

open scoped BigOperators

namespace Cert.TokenMlp.Host

open Cert.KernelIdeal Cert.KernelIdeal.Gen Idealize.ShloMosaic Idealize.ShloMosaic.TcCoe Idealize.SL.Sem Idealize.ShloMosaic.ValueIdx Cert.TokenMlp

variable (m : (ℓ : Loc nD τ sig) → Buf (Elt Ideal) ℓ)

/-! ## The three arrays as the host's terms

Each buffer the kernel region finds, as the composition of the host operations that wrote it, applied to the
launch contents of the arguments. -/

/-- The folded table as the host forms it from the embedding table E and the first weight W: E contracted with
    the transpose of the first 64 columns of W, joined along the rows with E contracted with the transpose of the
    last 64 columns of W and multiplied elementwise by the constant 1/8 spread over the array. -/
def tabArr (E : FVec Ideal S66x64 .f32) (W : FVec Ideal S64x128 .f32) : FVec Ideal S132x64 .f32 :=
  concatenate S132x64 0
    [⟨S66x64, Host.dotGeneral (F := Ideal) dot_S66x64_S64x64_S66x64_1_0_0_1_n_n none E
        (transpose S64x64 [1, 0] (extractStridedSlice S64x64 ![0, 0] W Facts₀.slices_S64x128_S64x64_0_0) Facts₀.transposes_S64x64_S64x64_1_0)⟩,
     ⟨S66x64, mulf (Host.dotGeneral (F := Ideal) dot_S66x64_S64x64_S66x64_1_0_0_1_n_n none E
        (transpose S64x64 [1, 0] (extractStridedSlice S64x64 ![0, 64] W Facts₀.slices_S64x128_S64x64_0_64) Facts₀.transposes_S64x64_S64x64_1_0))
        (broadcastInDim S66x64 ![] Facts₀.bcast_S_S66x64 (constant (F := Ideal) S_ .f32 0x3E000000#32))⟩]
    Facts₀.concatenates_S66x64_S66x64_S132x64_d0

/-- The table's buffer holds that term of the launch contents of E and W. -/
theorem V_tab_arr (c : Dev nD) :
    (V m c main_v8 : S132x64.Idx → EReal)
      = tabArr (m ((c : Thread nD τ).loc main_arg2)) (m ((c : Thread nD τ).loc main_arg3)) := by
  dsimp only [Gen.V, Gen.hostOps0]
  after_results
  rfl

/-- The second weight's buffer holds the transpose of its launch contents. -/
theorem V_w2t_arr (c : Dev nD) :
    (V m c main_v9 : S64x64.Idx → EReal)
      = transpose S64x64 [1, 0] (m ((c : Thread nD τ).loc main_arg5) : S64x64.Idx → EReal) Facts₀.transposes_S64x64_S64x64_1_0 := by
  dsimp only [Gen.V, Gen.hostOps0]
  after_results

/-- The query column's buffer holds the query vector spread along a new unit axis. -/
theorem V_qcol_arr (c : Dev nD) :
    (V m c main_v10 : S262144x1.Idx → BitVec 32)
      = broadcastInDim S262144x1 ![0] Facts₀.bcast_S262144_S262144x1_0 (m ((c : Thread nD τ).loc main_arg1) : S262144.Idx → BitVec 32) := by
  dsimp only [Gen.V, Gen.hostOps0]
  after_results

/-! ## The contraction of a 66 × 64 array with a 64 × 64 array, read at an index

At output (u, j) and contraction position k the left operand is read at (u, k) and the right at (k, j): the four
coordinates one by one, then the sum over the one contracted axis re-indexed by its coordinate. -/

theorem dotE_lhs_0 (i : S66x64.Idx) (q : dot_S66x64_S64x64_S66x64_1_0_0_1_n_n.contr.Idx) :
    (dot_S66x64_S64x64_S66x64_1_0_0_1_n_n.lhsIdx i q 0).val = (i 0).val := by
  unfold DotDims.lhsIdx
  rw [dif_neg (show ¬(0 : Fin S66x64.rank) ∈ dot_S66x64_S64x64_S66x64_1_0_0_1_n_n.lhsBatch by decide), dif_pos (show (0 : Fin S66x64.rank) ∈ dot_S66x64_S64x64_S66x64_1_0_0_1_n_n.lhsNonContracting by decide)]
  rfl
theorem dotE_lhs_1 (i : S66x64.Idx) (q : dot_S66x64_S64x64_S66x64_1_0_0_1_n_n.contr.Idx) :
    (dot_S66x64_S64x64_S66x64_1_0_0_1_n_n.lhsIdx i q 1).val = (q ⟨0, by decide⟩).val :=
  dot_S66x64_S64x64_S66x64_1_0_0_1_n_n.lhsIdx_val_of_single rfl i q
theorem dotE_rhs_0 (i : S66x64.Idx) (q : dot_S66x64_S64x64_S66x64_1_0_0_1_n_n.contr.Idx) :
    (dot_S66x64_S64x64_S66x64_1_0_0_1_n_n.rhsIdx i q 0).val = (q ⟨0, by decide⟩).val :=
  dot_S66x64_S64x64_S66x64_1_0_0_1_n_n.rhsIdx_val_of_single rfl i q
theorem dotE_rhs_1 (i : S66x64.Idx) (q : dot_S66x64_S64x64_S66x64_1_0_0_1_n_n.contr.Idx) :
    (dot_S66x64_S64x64_S66x64_1_0_0_1_n_n.rhsIdx i q 1).val = (i 1).val := by
  unfold DotDims.rhsIdx
  rw [dif_neg (show ¬(1 : Fin S64x64.rank) ∈ dot_S66x64_S64x64_S66x64_1_0_0_1_n_n.rhsBatch by decide), dif_pos (show (1 : Fin S64x64.rank) ∈ dot_S66x64_S64x64_S66x64_1_0_0_1_n_n.rhsNonContracting by decide)]
  rfl

/-- On extended reals the host's contraction of A (66 × 64) with R (64 × 64) is, at (u, j), the sum over k of
    A (u, k) · R (k, j). -/
theorem dotE_apply (A : FVec Ideal S66x64 .f32) (R : FVec Ideal S64x64 .f32) (u : Fin 66) (j : Fin 64) :
    Host.dotGeneral (F := Ideal) dot_S66x64_S64x64_S66x64_1_0_0_1_n_n none A R (ix2 u j)
      = ∑ k : Fin 64, A (ix2 u k) * R (ix2 k j) := by
  simp only [Host.dotGeneral]
  rw [Ideal.dotGeneral_apply, ← Equiv.sum_comp (ValueIdx.contrEquiv1 dot_S66x64_S64x64_S66x64_1_0_0_1_n_n 64 rfl rfl).symm]
  refine Finset.sum_congr rfl fun k _ => ?_
  have hk := ValueIdx.contrEquiv1_symm_val dot_S66x64_S64x64_S66x64_1_0_0_1_n_n 64 rfl rfl k
  have el : dot_S66x64_S64x64_S66x64_1_0_0_1_n_n.lhsIdx (ix2 u j) ((ValueIdx.contrEquiv1 dot_S66x64_S64x64_S66x64_1_0_0_1_n_n 64 rfl rfl).symm k) = ix2 u k := funext fun a => Fin.ext (by
    match a with
    | ⟨0, _⟩ => exact dotE_lhs_0 _ _
    | ⟨1, _⟩ => exact (dotE_lhs_1 _ _).trans hk)
  have er : dot_S66x64_S64x64_S66x64_1_0_0_1_n_n.rhsIdx (ix2 u j) ((ValueIdx.contrEquiv1 dot_S66x64_S64x64_S66x64_1_0_0_1_n_n 64 rfl rfl).symm k) = ix2 k j := funext fun a => Fin.ext (by
    match a with
    | ⟨0, _⟩ => exact (dotE_rhs_0 _ _).trans hk
    | ⟨1, _⟩ => exact dotE_rhs_1 _ _)
  rw [el, er]

/-! ## The layout operations under the contraction, read at an index -/

/-- The transpose of the 64 columns of W that start at column o reads, at (k, j), W at (j, o + k). -/
theorem sliceT_apply (o : Nat) (W : FVec Ideal S64x128 .f32) (hs : S64x128.Slices ![0, o] S64x64)
    (ht : S64x64.Transposes [1, 0] S64x64) (k j : Fin 64) (kk : Fin 128) (hk : kk.val = o + k.val) :
    transpose S64x64 [1, 0] (extractStridedSlice S64x64 ![0, o] W hs) ht (ix2 k j) = W (ix2 j kk) :=
  (transpose_ix2_apply _ ht k j).trans (slice2_axis1_apply o W hs j k kk hk)

/-- The constant 1/8 spread over the 66 × 64 array reads the number its float word encodes everywhere. -/
theorem eighth_apply (hb : S_.BroadcastsInDim S66x64 (![] : Fin 0 → Fin S66x64.rank)) (i : S66x64.Idx) :
    broadcastInDim S66x64 ![] hb (constant (F := Ideal) S_ .f32 0x3E000000#32) i = Ideal.ofBits .f32 0x3E000000#32 :=
  (broadcastInDim_apply _ hb _ i ix0 (fun a => a.elim0)).trans (constant_apply _ _)

/-! ## The folded table at an index -/

/-- The host's term at (u, j) is the specification's table: a row below 66 lies in the first joined piece, the
    contraction with the first 64 columns of row j of W; a row 66 + v lies in the second, the contraction with the
    last 64 columns times 1/8. -/
theorem tabArr_apply (E : FVec Ideal S66x64 .f32) (W : FVec Ideal S64x128 .f32) (u : Fin 132) (j : Fin 64) :
    tabArr E W (ix2 u j) = tab E W u j := by
  unfold tabArr tab
  by_cases h : u.val < 66
  · rw [dif_pos h]
    refine (concatenate_pair_apply_left (t := S132x64) (s₁ := S66x64) (s₂ := S66x64) 0 _ _ _ (ix2 u j) rfl (ix2 ⟨u.val, h⟩ j)
      (fun b => match b with | ⟨0, _⟩ => rfl | ⟨1, _⟩ => rfl)).trans ?_
    refine (dotE_apply _ _ _ _).trans (Finset.sum_congr rfl fun k _ => ?_)
    exact congrArg (E (ix2 ⟨u.val, h⟩ k) * ·) (sliceT_apply 0 W _ _ k j ⟨k.val, by omega⟩ (Nat.zero_add _).symm)
  · rw [dif_neg h]
    refine (concatenate_pair_apply_right (t := S132x64) (s₁ := S66x64) (s₂ := S66x64) 0 _ _ _ (ix2 u j) rfl rfl (ix2 ⟨u.val - 66, by omega⟩ j)
      (fun b => match b with | ⟨0, _⟩ => fun hb => absurd rfl hb | ⟨1, _⟩ => fun _ => rfl)
      (by show u.val - 66 + 66 = u.val; omega)).trans ?_
    refine (mulf_apply _ _ _).trans ?_
    refine congrArg₂ (· * ·) ?_ (eighth_apply _ _)
    refine (dotE_apply _ _ _ _).trans (Finset.sum_congr rfl fun k _ => ?_)
    exact congrArg (E (ix2 ⟨u.val - 66, by omega⟩ k) * ·) (sliceT_apply 64 W _ _ k j ⟨64 + k.val, by omega⟩ rfl)

/-! ## The three buffers at an index -/

theorem V_tab (c : Dev nD) (u : Fin 132) (j : Fin 64) :
    (V m c main_v8 : S132x64.Idx → EReal) (ix2 u j)
      = tab (m ((c : Thread nD τ).loc main_arg2)) (m ((c : Thread nD τ).loc main_arg3)) u j :=
  (congrFun (V_tab_arr m c) (ix2 u j)).trans (tabArr_apply _ _ u j)

theorem V_w2t (c : Dev nD) (j o : Fin 64) :
    (V m c main_v9 : S64x64.Idx → EReal) (ix2 j o) = (m ((c : Thread nD τ).loc main_arg5) : S64x64.Idx → EReal) (ix2 o j) :=
  (congrFun (V_w2t_arr m c) (ix2 j o)).trans (transpose_ix2_apply _ _ j o)

theorem V_qcol (c : Dev nD) (r : Fin 262144) (z : Fin 1) :
    (V m c main_v10 : S262144x1.Idx → BitVec 32) (ix2 r z) = (m ((c : Thread nD τ).loc main_arg1) : S262144.Idx → BitVec 32) (ix1 r) :=
  (congrFun (V_qcol_arr m c) (ix2 r z)).trans
    (broadcastInDim_apply _ _ _ (ix2 r z) (ix1 r) (fun a => match a with
      | ⟨0, _⟩ => by show r.val = if (262144 : Nat) = 1 then 0 else r.val; rw [if_neg (by decide)]))

end Cert.TokenMlp.Host

end
-- ==== Proof.KernelValue.lean ====
/-
  The kernel's result array as one function of the argument arrays.

  The pipeline runs the body at 32 grid points. Point t reads rows 8192·t … 8192·t + 8191 of the token array and of
  the query column, and the whole of the folded table, the two biases and the transposed second weight; it writes
  rows 8192·t … 8192·t + 8191 of the result. What the body leaves at row p, column o of its output block is the folded
  form of the specification over its input blocks; read through the blocks, that is the folded form GK of the argument
  arrays at row 8192·t + p, column o. The 32 row blocks tile the result array, so the array ends holding GK.
-/
import proofs.«404180_j77068893160204_2_alg».proof.Proof.Gen.KernelIdeal.Value
import proofs.«404180_j77068893160204_2_alg».proof.Proof.Spec
import proofs.«404180_j77068893160204_2_alg».proof.Proof.Body
import proofs.«404180_j77068893160204_2_alg».proof.Proof.HostArrays
import Idealize.ShloMosaic.Lib.Pipeline.Value

set_option maxRecDepth 16384

noncomputable section

open scoped BigOperators

open Idealize.ShloMosaic Idealize.ShloMosaic.TcCoe Idealize.SL.Sem
open Idealize.ShloMosaic.Pipeline (Dat)

namespace Cert.TokenMlp.Kernel

open Cert.KernelIdeal Cert.KernelIdeal.Gen Cert.KernelIdeal.Value Idealize.ShloMosaic.ValueIdx Cert.TokenMlp

variable (m : (ℓ : Loc nD τ sig) → Buf (Elt Ideal) ℓ) (ρ : Dev nD → PrngReg)

/-- The seven argument arrays on core c, as launched. -/
abbrev seqsA (c : Dev nD) : IVec S262144x24 32 := m ((c : Thread nD τ).loc main_arg0)
abbrev qA (c : Dev nD) : IVec S262144 32 := m ((c : Thread nD τ).loc main_arg1)
abbrev eA (c : Dev nD) : FVec Ideal S66x64 .f32 := m ((c : Thread nD τ).loc main_arg2)
abbrev w1A (c : Dev nD) : FVec Ideal S64x128 .f32 := m ((c : Thread nD τ).loc main_arg3)
abbrev b1A (c : Dev nD) : FVec Ideal S64 .f32 := m ((c : Thread nD τ).loc main_arg4)
abbrev w2A (c : Dev nD) : FVec Ideal S64x64 .f32 := m ((c : Thread nD τ).loc main_arg5)
abbrev b2A (c : Dev nD) : FVec Ideal S64 .f32 := m ((c : Thread nD τ).loc main_arg6)

/-- The printed index maps over the 32 grid points: the token rows, the query column and the result move one block
    per point along the rows; the table, the biases and the weight stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem t_lt (t : Fin cfg0.N) : t.val < 32 := lt_of_lt_of_eq t.isLt N_0

/-- Row p, column k of the token block at point t is row 8192·t + p of the token array. -/
theorem tokBlock_apply (c : Dev nD) (t : Fin cfg0.N) (p : Fin 8192) (k : Fin 24) :
    (iblk m c 0 t : Vec Ideal S8192x24 .i32) (ix2 p k)
      = seqsA m c (ix2 ⟨t.val * 8192 + p.val, by have := t_lt t; omega⟩ k) := by
  obtain ⟨h0, h1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 8192 + 1 * p.val = t.val * 8192 + p.val; rw [h0]; omega
  | ⟨1, _⟩ => show win0_0.index t (1 : Fin 2) * 24 + 1 * k.val = k.val; rw [h1]; omega

/-- Row p of the query block at point t is entry 8192·t + p of the query vector. -/
theorem qBlock_apply (c : Dev nD) (t : Fin cfg0.N) (p : Fin 8192) (z : Fin 1) :
    (iblk m c 1 t : Vec Ideal S8192x1 .i32) (ix2 p z)
      = qA m c (ix1 ⟨t.val * 8192 + p.val, by have := t_lt t; omega⟩) := by
  obtain ⟨-, -, h0, h1, -⟩ := idx_facts t
  unfold iblk
  rw [View.read_apply]
  show V m c main_v10 _ = _
  refine Eq.trans (congrArg _ (funext fun a => Fin.ext ?_))
    (Host.V_qcol m c ⟨t.val * 8192 + p.val, by have := t_lt t; omega⟩ z)
  match a with
  | ⟨0, _⟩ => show win0_1.index t (0 : Fin 2) * 8192 + 1 * p.val = t.val * 8192 + p.val; rw [h0]; omega
  | ⟨1, _⟩ => show win0_1.index t (1 : Fin 2) * 1 + 1 * z.val = z.val; rw [h1]; omega

/-- The table block is the whole folded table at every point. -/
theorem tabBlock_apply (c : Dev nD) (t : Fin cfg0.N) (u : Fin 132) (j : Fin 64) :
    (iblk m c 2 t : Vec Ideal S132x64 .f32) (ix2 u j) = tab (eA m c) (w1A m c) u j := by
  obtain ⟨-, -, -, -, h0, h1, -⟩ := idx_facts t
  unfold iblk
  rw [View.read_apply]
  show V m c main_v8 _ = _
  refine Eq.trans (congrArg _ (funext fun a => Fin.ext ?_)) (Host.V_tab m c u j)
  match a with
  | ⟨0, _⟩ => show win0_2.index t (0 : Fin 2) * 132 + 1 * u.val = u.val; rw [h0]; omega
  | ⟨1, _⟩ => show win0_2.index t (1 : Fin 2) * 64 + 1 * j.val = j.val; rw [h1]; omega

/-- The first bias block is the whole bias at every point. -/
theorem b1Block_apply (c : Dev nD) (t : Fin cfg0.N) (j : Fin 64) :
    (iblk m c 3 t : Vec Ideal S64 .f32) (ix1 j) = b1A m c (ix1 j) := by
  obtain ⟨-, -, -, -, -, -, h0, -⟩ := idx_facts t
  unfold iblk
  rw [View.read_apply]
  show V m c main_arg4 _ = _
  rw [V_main_arg4]
  refine congrArg _ (funext fun a => Fin.ext ?_)
  match a with
  | ⟨0, _⟩ => show win0_3.index t (0 : Fin 1) * 64 + 1 * j.val = j.val; rw [h0]; omega

/-- The weight block is the second weight transposed, whole, at every point. -/
theorem w2Block_apply (c : Dev nD) (t : Fin cfg0.N) (j o : Fin 64) :
    (iblk m c 4 t : Vec Ideal S64x64 .f32) (ix2 j o) = w2A m c (ix2 o j) := by
  obtain ⟨-, -, -, -, -, -, -, h0, h1, -⟩ := idx_facts t
  unfold iblk
  rw [View.read_apply]
  show V m c main_v9 _ = _
  refine Eq.trans (congrArg _ (funext fun a => Fin.ext ?_)) (Host.V_w2t m c j o)
  match a with
  | ⟨0, _⟩ => show win0_4.index t (0 : Fin 2) * 64 + 1 * j.val = j.val; rw [h0]; omega
  | ⟨1, _⟩ => show win0_4.index t (1 : Fin 2) * 64 + 1 * o.val = o.val; rw [h1]; omega

/-- The second bias block is the whole bias at every point. -/
theorem b2Block_apply (c : Dev nD) (t : Fin cfg0.N) (o : Fin 64) :
    (iblk m c 5 t : Vec Ideal S64 .f32) (ix1 o) = b2A m c (ix1 o) := by
  obtain ⟨-, -, -, -, -, -, -, -, -, h0, -⟩ := idx_facts t
  unfold iblk
  rw [View.read_apply]
  show V m c main_arg6 _ = _
  rw [V_main_arg6]
  refine congrArg _ (funext fun a => Fin.ext ?_)
  match a with
  | ⟨0, _⟩ => show win0_5.index t (0 : Fin 1) * 64 + 1 * o.val = o.val; rw [h0]; omega

/-- WHAT POINT t WRITES BACK is block t of the folded form of the argument arrays. -/
theorem flushed_eq (c : Dev nD) (t : Fin cfg0.N) :
    (dats m 0 c).flushed 6 t = ((cfg0.win 6).blk t).view.read (Elt Ideal)
      (GK (seqsA m c) (qA m c) (eA m c) (w1A m c) (b1A m c) (w2A m c) (b2A m c)) := by
  obtain ⟨-, -, -, -, -, -, -, -, -, -, h0, h1⟩ := idx_facts t
  rw [flushed6]
  funext y
  obtain ⟨p, o, rfl⟩ : ∃ (p : Fin 8192) (o : Fin 64), y = ix2 p o := ⟨y 0, y 1, eq_ix2 y⟩
  rw [View.read_apply]
  have hemb : ((cfg0.win 6).blk t).view.emb (ix2 p o)
      = ix2 (⟨t.val * 8192 + p.val, by have := t_lt t; omega⟩ : Fin 262144) o := by
    funext a; apply Fin.ext
    match a with
    | ⟨0, _⟩ => show win0_6.index t (0 : Fin 2) * 8192 + 1 * p.val = t.val * 8192 + p.val; rw [h0]; omega
    | ⟨1, _⟩ => show win0_6.index t (1 : Fin 2) * 64 + 1 * o.val = o.val; rw [h1]; omega
  rw [hemb]
  show out0_6 (iblk m c 0 t) (iblk m c 1 t) (iblk m c 2 t) (iblk m c 3 t) (iblk m c 4 t) (iblk m c 5 t) (ix2 p o) = _
  refine (Body.out_apply (iblk m c 0 t) (iblk m c 1 t) (iblk m c 2 t) (iblk m c 3 t) (iblk m c 4 t) (iblk m c 5 t) p o).trans ?_
  unfold GK
  have e3 : (fun j : Fin 64 => (iblk m c 3 t : Vec Ideal S64 .f32) (ix1 j)) = fun j => b1A m c (ix1 j) :=
    funext fun j => b1Block_apply m c t j
  have e4 : (fun (j o' : Fin 64) => (iblk m c 4 t : Vec Ideal S64x64 .f32) (ix2 j o')) = fun j o' => w2A m c (ix2 o' j) :=
    funext fun j => funext fun o' => w2Block_apply m c t j o'
  have e5 : (fun o' : Fin 64 => (iblk m c 5 t : Vec Ideal S64 .f32) (ix1 o')) = fun o' => b2A m c (ix1 o') :=
    funext fun o' => b2Block_apply m c t o'
  have e2 : (fun (u : Fin 132) (j : Fin 64) => (iblk m c 2 t : Vec Ideal S132x64 .f32) (ix2 u j)) = tab (eA m c) (w1A m c) :=
    funext fun u => funext fun j => tabBlock_apply m c t u j
  have e1 : (iblk m c 1 t : Vec Ideal S8192x1 .i32) (ix2 p (0 : Fin 1))
      = qA m c (ix1 ⟨t.val * 8192 + p.val, by have := t_lt t; omega⟩) := qBlock_apply m c t p 0
  have e0 : (fun cc : Fin 8 => (iblk m c 0 t : Vec Ideal S8192x24 .i32) (ix2 p ⟨15 + cc.val, by omega⟩))
      = toks (seqsA m c) ⟨t.val * 8192 + p.val, by have := t_lt t; omega⟩ :=
    funext fun cc => tokBlock_apply m c t p ⟨15 + cc.val, by omega⟩
  rw [e3, e4, e5, e2, e1, e0]
  rfl

/-- An index of the result array is in point t's block exactly when each coordinate is in the block's range. -/
theorem mem_blk (t : Fin cfg0.N) (i : S262144x64.Idx) :
    i ∈ ((cfg0.win 6).blk t).view.set ↔ ∀ a : Fin 2, win0_6.index t a * S8192x64.size a ≤ (i a).val
      ∧ (i a).val < win0_6.index t a * S8192x64.size a + S8192x64.size a := by
  show i ∈ ((View.whole main_v11).slice (win0_6.rect t)).set ↔ _
  rw [View.set_slice_whole, Rect.mem_set_unit]
  exact Iff.rfl

/-- The 32 row blocks tile the result: row r lies in the block of point r / 8192. -/
theorem cover (i : S262144x64.Idx) :
    ∃ t : Fin cfg0.N, (cfg0.win 6).flush t = true ∧ i ∈ ((cfg0.win 6).blk t).view.set := by
  have hi0 : (i 0).val < 262144 := (i 0).isLt
  have hi1 : (i 1).val < 64 := (i 1).isLt
  have hq : (i 0).val / 8192 < 32 := by omega
  refine ⟨⟨(i 0).val / 8192, lt_of_lt_of_eq hq N_0.symm⟩, flush0_6 _, ?_⟩
  obtain ⟨-, -, -, -, -, -, -, -, -, -, h0, h1⟩ := idx_facts ⟨(i 0).val / 8192, lt_of_lt_of_eq hq N_0.symm⟩
  rw [mem_blk]
  intro a
  match a with
  | ⟨0, _⟩ =>
    show win0_6.index _ (0 : Fin 2) * 8192 ≤ (i 0).val ∧ (i 0).val < win0_6.index _ (0 : Fin 2) * 8192 + 8192
    rw [h0]
    show (i 0).val / 8192 * 8192 ≤ (i 0).val ∧ (i 0).val < (i 0).val / 8192 * 8192 + 8192
    omega
  | ⟨1, _⟩ =>
    show win0_6.index _ (1 : Fin 2) * 64 ≤ (i 1).val ∧ (i 1).val < win0_6.index _ (1 : Fin 2) * 64 + 64
    rw [h1]
    omega

/-- THE RESULT ARRAY after the run is the folded form of the argument arrays. -/
theorem final (c : Dev nD) : (dats m 0 c).arrAt 6 cfg0.N
    = GK (seqsA m c) (qA m c) (eA m c) (w1A m c) (b1A m c) (w2A m c) (b2A m c) :=
  (dats m 0 c).arrAt_eq_of_cover 6 _ (fun t _ => flushed_eq m c t) cover

/-- The kernel program's run, read: the result array at the folded form, the arguments unchanged. -/
theorem run : θ_run defs (onTc (τ := τ) (main (F := Ideal))) ⟨m, fun _ => 0, ρ⟩ fun r => ∀ c : Dev nD,
      r.2.mem ((c : Thread nD τ).loc main_v11) = GK (seqsA m c) (qA m c) (eA m c) (w1A m c) (b1A m c) (w2A m c) (b2A m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.TokenMlp.Kernel

end
-- ==== Proof.lean ====
/-
  A batch row's query token and eight memory tokens index an embedding table; the reference looks the rows up, means
  the eight memory rows, and applies two dense layers; the kernel folds the lookup and the mean into the first layer's
  weights (a 132-row table contracted with an indicator and a count vector) and applies the same second layer.

  The certificate: both idealized programs run, leave their arguments unchanged, and end with the same result array.
  The kernel's array is the folded form GK of the argument arrays (each grid point writes its block of it, and the
  blocks tile the array); the reference's is the looked-up form G; and under the precondition — real entries in the
  table and the first weight, every looked-up token a word 0 … 65 — the two forms are one function, because summing an
  indicator against a table picks a row, the counts distribute over the tokens, and the division by 8 commutes with
  the second contraction over the reals. Nothing was rewritten between the kernel as printed and its idealization, so
  that conjunct is trivial.
-/
import proofs.«404180_j77068893160204_2_alg».proof.Defs
import proofs.«404180_j77068893160204_2_alg».proof.Proof.Gen.Kernel
import proofs.«404180_j77068893160204_2_alg».proof.Proof.Gen.Kernel.Skeleton
import proofs.«404180_j77068893160204_2_alg».proof.Proof.Gen.Kernel.Launch
import proofs.«404180_j77068893160204_2_alg».proof.Proof.Gen.Kernel.Points
import proofs.«404180_j77068893160204_2_alg».proof.Proof.Gen.Kernel.Frame
import proofs.«404180_j77068893160204_2_alg».proof.Proof.Gen.KernelIdeal
import proofs.«404180_j77068893160204_2_alg».proof.Proof.Gen.KernelIdeal.Skeleton
import proofs.«404180_j77068893160204_2_alg».proof.Proof.Gen.KernelIdeal.Launch
import proofs.«404180_j77068893160204_2_alg».proof.Proof.Gen.KernelIdeal.Points
import proofs.«404180_j77068893160204_2_alg».proof.Proof.Gen.KernelIdeal.Frame
import proofs.«404180_j77068893160204_2_alg».proof.Proof.Gen.ReferenceIdeal
import proofs.«404180_j77068893160204_2_alg».proof.Proof.Gen.Pre_finite_inputs
import proofs.«404180_j77068893160204_2_alg».proof.Proof.Gen.KernelIdeal.Value
import proofs.«404180_j77068893160204_2_alg».proof.Proof.Gen.ReferenceIdeal.Run
import proofs.«404180_j77068893160204_2_alg».proof.Proof.Gen.ReferenceIdeal.Read
import proofs.«404180_j77068893160204_2_alg».proof.Proof.Spec
import proofs.«404180_j77068893160204_2_alg».proof.Proof.PreFacts
import proofs.«404180_j77068893160204_2_alg».proof.Proof.RefValue
import proofs.«404180_j77068893160204_2_alg».proof.Proof.KernelValue
import Idealize.ShloMosaic.Adequacy
import Idealize.ShloMosaic.Init

noncomputable section

namespace Cert.Proof

open Idealize.ShloMosaic Idealize.SL.Sem Cert.TokenMlp

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array is the folded form of its arguments, the reference's the
    looked-up form of arguments that agree with them, and under the precondition the two forms are one function. -/
theorem algebraic : Cert.algebraic_KernelIdeal_ReferenceIdeal := by
  intro m ρ m' ρ' hpre hagree
  refine ⟨fun c => GK (Kernel.seqsA m c) (Kernel.qA m c) (Kernel.eA m c) (Kernel.w1A m c) (Kernel.b1A m c)
    (Kernel.w2A m c) (Kernel.b2A m c), Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6⟩ := hagree c
  obtain ⟨hE, hW, hq, hm⟩ := Pre.of_pre _ _ _ _ _ _ _ (hpre c)
  rw [Cert.ReferenceIdeal.Read.val_main_v29_eq, Ref.ref_eq_G, g0, g1, g2, g3, g4, g5, g6]
  exact (GK_eq_G _ _ _ _ _ _ _ hE hW hq hm).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
